-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 2048]⟩ ⟨2, ![4096, 2048]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 2048]⟩ (Layout.meshBlock [2, 4, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x2048 : Shape := ⟨2, ![1024, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel

variable [Facts]

def fn {F : FTy → Type} [FloatOps F] (main_arg0 : FVec F S1024x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  main_v3
-- ==== Pre_finite_inputs_ReferenceIdeal.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  main_v3
-- ==== Kernel.lean ====
abbrev S1024x2048 : Shape := ⟨2, ![1024, 2048]⟩
abbrev S4096x512 : Shape := ⟨2, ![4096, 512]⟩
abbrev S3 : Shape := ⟨1, ![3]⟩
abbrev S_ : Shape := ⟨0, ![]⟩
abbrev S1024x512 : Shape := ⟨2, ![1024, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S1024x2048, .f32⟩
  | .hbm, ⟨1, _⟩ => ⟨S4096x512, .bf16⟩
  | .local _ .vmem, ⟨0, _⟩ => ⟨S1024x2048, .f32⟩
  | .local _ .vmem, ⟨1, _⟩ => ⟨S4096x512, .bf16⟩
  | .local _ .vmem, ⟨2, _⟩ => ⟨S1024x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v27 : BitVec 32 := Scalar.muli v2 c16_i32_12
  let v28 : BitVec 32 := Scalar.addi c0_i32_13 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_5 : BitVec 32 := 1#32
  let v16 : BitVec 32 := Scalar.addi v5 c1_i32_5
  let c4_i32_6 : BitVec 32 := 4#32
  let c0_i32 : BitVec 32 := 0#32
  let v17 : BitVec 1 := Scalar.cmpi .eq c4_i32_6 c0_i32
  let c1_i32_7 : BitVec 32 := 1#32
  let v18 : BitVec 32 := Scalar.select v17 c1_i32_7 c4_i32_6
  let v19 : BitVec 32 := Scalar.remsi v16 v18
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let c0_i32_8 : BitVec 32 := 0#32
  let v20 : BitVec 1 := Scalar.cmpi .ne v19 c0_i32_8
  let v24 : BitVec 1 := Scalar.andi v23 v20
  let v25 : BitVec 32 := Scalar.addi v19 v18
  let v26 : BitVec 32 := Scalar.select v24 v25 v19
  let c4_i32_14 : BitVec 32 := 4#32
  let v29 : BitVec 32 := Scalar.muli v26 c4_i32_14
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_15 : BitVec 32 := 1#32
  let v31 : BitVec 32 := Scalar.muli v8 c1_i32_15
  let v32 : BitVec 32 := Scalar.addi v30 v31
  v32.toNat
def k0_dev2 (d0 : Dev nD) : Nat :=
  let c0_i32_25 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_24 : BitVec 32 := 16#32
  let v44 : BitVec 32 := Scalar.muli v2 c16_i32_24
  let v45 : BitVec 32 := Scalar.addi c0_i32_25 v44
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_16 : BitVec 32 := 2#32
  let v33 : BitVec 32 := Scalar.addi v5 c2_i32_16
  let c4_i32_17 : BitVec 32 := 4#32
  let c0_i32_18 : BitVec 32 := 0#32
  let v34 : BitVec 1 := Scalar.cmpi .eq c4_i32_17 c0_i32_18
  let c1_i32_19 : BitVec 32 := 1#32
  let v35 : BitVec 32 := Scalar.select v34 c1_i32_19 c4_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c4_i32_26 : BitVec 32 := 4#32
  let v46 : BitVec 32 := Scalar.muli v43 c4_i32_26
  let v47 : BitVec 32 := Scalar.addi v45 v46
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v48 : BitVec 32 := Scalar.muli v8 c1_i32_27
  let v49 : BitVec 32 := Scalar.addi v47 v48
  v49.toNat
def k0_dev3 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_35 : BitVec 32 := 16#32
  let v61 : BitVec 32 := Scalar.muli v2 c16_i32_35
  let v62 : BitVec 32 := Scalar.addi c0_i32_36 v61
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v50 : BitVec 32 := Scalar.addi v5 c3_i32
  let c4_i32_28 : BitVec 32 := 4#32
  let c0_i32_29 : BitVec 32 := 0#32
  let v51 : BitVec 1 := Scalar.cmpi .eq c4_i32_28 c0_i32_29
  let c1_i32_30 : BitVec 32 := 1#32
  let v52 : BitVec 32 := Scalar.select v51 c1_i32_30 c4_i32_28
  let v53 : BitVec 32 := Scalar.remsi v50 v52
  let c0_i32_32 : BitVec 32 := 0#32
  let v55 : BitVec 1 := Scalar.cmpi .slt v53 c0_i32_32
  let c0_i32_33 : BitVec 32 := 0#32
  let v56 : BitVec 1 := Scalar.cmpi .slt v52 c0_i32_33
  let v57 : BitVec 1 := Scalar.xori v55 v56
  let c0_i32_31 : BitVec 32 := 0#32
  let v54 : BitVec 1 := Scalar.cmpi .ne v53 c0_i32_31
  let v58 : BitVec 1 := Scalar.andi v57 v54
  let v59 : BitVec 32 := Scalar.addi v53 v52
  let v60 : BitVec 32 := Scalar.select v58 v59 v53
  let c4_i32_37 : BitVec 32 := 4#32
  let v63 : BitVec 32 := Scalar.muli v60 c4_i32_37
  let v64 : BitVec 32 := Scalar.addi v62 v63
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v65 : BitVec 32 := Scalar.muli v8 c1_i32_38
  let v66 : BitVec 32 := Scalar.addi v64 v65
  v66.toNat
def k0_off1 (d0 : Dev nD) : Fin 2 → Nat :=
  let c0_40 : Index := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c512_i32 : BitVec 32 := 512#32
  let v67 : BitVec 32 := Scalar.muli v5 c512_i32
  let v68 : Index := Scalar.indexCast v67
  ![0, v68.toNat]
def k0_off2 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32 : BitVec 32 := 1024#32
  let v70 : BitVec 32 := Scalar.muli v5 c1024_i32
  let v71 : Index := Scalar.indexCast v70
  let c0_41 : Index := 0#32
  ![v71.toNat, 0]
def k0_off3 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_50 : BitVec 32 := 1024#32
  let v85 : BitVec 32 := Scalar.muli v5 c1024_i32_50
  let c0_i32_57 : BitVec 32 := 0#32
  ![v85.toNat, 0]
def k0_off4 (d0 : Dev nD) (c1_i32_42 : BitVec 32) : Fin 2 → Nat :=
  let c0_i32_58 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v73 : BitVec 32 := Scalar.addi v5 c1_i32_42
  let c4_i32_43 : BitVec 32 := 4#32
  let c0_i32_44 : BitVec 32 := 0#32
  let v74 : BitVec 1 := Scalar.cmpi .eq c4_i32_43 c0_i32_44
  let c1_i32_45 : BitVec 32 := 1#32
  let v75 : BitVec 32 := Scalar.select v74 c1_i32_45 c4_i32_43
  let v76 : BitVec 32 := Scalar.remsi v73 v75
  let c0_i32_47 : BitVec 32 := 0#32
  let v78 : BitVec 1 := Scalar.cmpi .slt v76 c0_i32_47
  let c0_i32_48 : BitVec 32 := 0#32
  let v79 : BitVec 1 := Scalar.cmpi .slt v75 c0_i32_48
  let v80 : BitVec 1 := Scalar.xori v78 v79
  let c0_i32_46 : BitVec 32 := 0#32
  let v77 : BitVec 1 := Scalar.cmpi .ne v76 c0_i32_46
  let v81 : BitVec 1 := Scalar.andi v80 v77
  let v82 : BitVec 32 := Scalar.addi v76 v75
  let v83 : BitVec 32 := Scalar.select v81 v82 v76
  let c512_i32_49 : BitVec 32 := 512#32
  let v84 : BitVec 32 := Scalar.muli v83 c512_i32_49
  ![0, v84.toNat]
def k0_dev4 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v86 : BitVec 32 := Scalar.muli v2 c16_i32_53
  let v87 : BitVec 32 := Scalar.addi c0_i32_54 v86
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_42 : BitVec 32 := 1#32
  let v73 : BitVec 32 := Scalar.addi v5 c1_i32_42
  let c4_i32_43 : BitVec 32 := 4#32
  let c0_i32_44 : BitVec 32 := 0#32
  let v74 : BitVec 1 := Scalar.cmpi .eq c4_i32_43 c0_i32_44
  let c1_i32_45 : BitVec 32 := 1#32
  let v75 : BitVec 32 := Scalar.select v74 c1_i32_45 c4_i32_43
  let v76 : BitVec 32 := Scalar.remsi v73 v75
  let c0_i32_47 : BitVec 32 := 0#32
  let v78 : BitVec 1 := Scalar.cmpi .slt v76 c0_i32_47
  let c0_i32_48 : BitVec 32 := 0#32
  let v79 : BitVec 1 := Scalar.cmpi .slt v75 c0_i32_48
  let v80 : BitVec 1 := Scalar.xori v78 v79
  let c0_i32_46 : BitVec 32 := 0#32
  let v77 : BitVec 1 := Scalar.cmpi .ne v76 c0_i32_46
  let v81 : BitVec 1 := Scalar.andi v80 v77
  let v82 : BitVec 32 := Scalar.addi v76 v75
  let v83 : BitVec 32 := Scalar.select v81 v82 v76
  let c4_i32_55 : BitVec 32 := 4#32
  let v88 : BitVec 32 := Scalar.muli v83 c4_i32_55
  let v89 : BitVec 32 := Scalar.addi v87 v88
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v90 : BitVec 32 := Scalar.muli v8 c1_i32_56
  let v91 : BitVec 32 := Scalar.addi v89 v90
  v91.toNat
def k0_dev5 (d0 : Dev nD) : Nat :=
  let c0_i32_71 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_70 : BitVec 32 := 16#32
  let v111 : BitVec 32 := Scalar.muli v2 c16_i32_70
  let v112 : BitVec 32 := Scalar.addi c0_i32_71 v111
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_59 : BitVec 32 := 2#32
  let v98 : BitVec 32 := Scalar.addi v5 c2_i32_59
  let c4_i32_60 : BitVec 32 := 4#32
  let c0_i32_61 : BitVec 32 := 0#32
  let v99 : BitVec 1 := Scalar.cmpi .eq c4_i32_60 c0_i32_61
  let c1_i32_62 : BitVec 32 := 1#32
  let v100 : BitVec 32 := Scalar.select v99 c1_i32_62 c4_i32_60
  let v101 : BitVec 32 := Scalar.remsi v98 v100
  let c0_i32_64 : BitVec 32 := 0#32
  let v103 : BitVec 1 := Scalar.cmpi .slt v101 c0_i32_64
  let c0_i32_65 : BitVec 32 := 0#32
  let v104 : BitVec 1 := Scalar.cmpi .slt v100 c0_i32_65
  let v105 : BitVec 1 := Scalar.xori v103 v104
  let c0_i32_63 : BitVec 32 := 0#32
  let v102 : BitVec 1 := Scalar.cmpi .ne v101 c0_i32_63
  let v106 : BitVec 1 := Scalar.andi v105 v102
  let v107 : BitVec 32 := Scalar.addi v101 v100
  let v108 : BitVec 32 := Scalar.select v106 v107 v101
  let c4_i32_72 : BitVec 32 := 4#32
  let v113 : BitVec 32 := Scalar.muli v108 c4_i32_72
  let v114 : BitVec 32 := Scalar.addi v112 v113
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v115 : BitVec 32 := Scalar.muli v8 c1_i32_73
  let v116 : BitVec 32 := Scalar.addi v114 v115
  v116.toNat
def k0_dev6 (d0 : Dev nD) : Nat :=
  let c0_i32_88 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_87 : BitVec 32 := 16#32
  let v136 : BitVec 32 := Scalar.muli v2 c16_i32_87
  let v137 : BitVec 32 := Scalar.addi c0_i32_88 v136
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_76 : BitVec 32 := 3#32
  let v123 : BitVec 32 := Scalar.addi v5 c3_i32_76
  let c4_i32_77 : BitVec 32 := 4#32
  let c0_i32_78 : BitVec 32 := 0#32
  let v124 : BitVec 1 := Scalar.cmpi .eq c4_i32_77 c0_i32_78
  let c1_i32_79 : BitVec 32 := 1#32
  let v125 : BitVec 32 := Scalar.select v124 c1_i32_79 c4_i32_77
  let v126 : BitVec 32 := Scalar.remsi v123 v125
  let c0_i32_81 : BitVec 32 := 0#32
  let v128 : BitVec 1 := Scalar.cmpi .slt v126 c0_i32_81
  let c0_i32_82 : BitVec 32 := 0#32
  let v129 : BitVec 1 := Scalar.cmpi .slt v125 c0_i32_82
  let v130 : BitVec 1 := Scalar.xori v128 v129
  let c0_i32_80 : BitVec 32 := 0#32
  let v127 : BitVec 1 := Scalar.cmpi .ne v126 c0_i32_80
  let v131 : BitVec 1 := Scalar.andi v130 v127
  let v132 : BitVec 32 := Scalar.addi v126 v125
  let v133 : BitVec 32 := Scalar.select v131 v132 v126
  let c4_i32_89 : BitVec 32 := 4#32
  let v138 : BitVec 32 := Scalar.muli v133 c4_i32_89
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v140 : BitVec 32 := Scalar.muli v8 c1_i32_90
  let v141 : BitVec 32 := Scalar.addi v139 v140
  v141.toNat
def k0_off5 (d0 : Dev nD) (c1_i32_93 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v148 : BitVec 32 := Scalar.subi v5 c1_i32_93
  let c4_i32_94 : BitVec 32 := 4#32
  let c0_i32_95 : BitVec 32 := 0#32
  let v149 : BitVec 1 := Scalar.cmpi .eq c4_i32_94 c0_i32_95
  let c1_i32_96 : BitVec 32 := 1#32
  let v150 : BitVec 32 := Scalar.select v149 c1_i32_96 c4_i32_94
  let v151 : BitVec 32 := Scalar.remsi v148 v150
  let c0_i32_98 : BitVec 32 := 0#32
  let v153 : BitVec 1 := Scalar.cmpi .slt v151 c0_i32_98
  let c0_i32_99 : BitVec 32 := 0#32
  let v154 : BitVec 1 := Scalar.cmpi .slt v150 c0_i32_99
  let v155 : BitVec 1 := Scalar.xori v153 v154
  let c0_i32_97 : BitVec 32 := 0#32
  let v152 : BitVec 1 := Scalar.cmpi .ne v151 c0_i32_97
  let v156 : BitVec 1 := Scalar.andi v155 v152
  let v157 : BitVec 32 := Scalar.addi v151 v150
  let v158 : BitVec 32 := Scalar.select v156 v157 v151
  let c1024_i32_101 : BitVec 32 := 1024#32
  let v160 : BitVec 32 := Scalar.muli v158 c1024_i32_101
  let c0_i32_108 : BitVec 32 := 0#32
  ![v160.toNat, 0]
def k0_off6 (d0 : Dev nD) (c1_i32_93 : BitVec 32) : Fin 2 → Nat :=
  let c0_i32_109 : BitVec 32 := 0#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v148 : BitVec 32 := Scalar.subi v5 c1_i32_93
  let c4_i32_94 : BitVec 32 := 4#32
  let c0_i32_95 : BitVec 32 := 0#32
  let v149 : BitVec 1 := Scalar.cmpi .eq c4_i32_94 c0_i32_95
  let c1_i32_96 : BitVec 32 := 1#32
  let v150 : BitVec 32 := Scalar.select v149 c1_i32_96 c4_i32_94
  let v151 : BitVec 32 := Scalar.remsi v148 v150
  let c0_i32_98 : BitVec 32 := 0#32
  let v153 : BitVec 1 := Scalar.cmpi .slt v151 c0_i32_98
  let c0_i32_99 : BitVec 32 := 0#32
  let v154 : BitVec 1 := Scalar.cmpi .slt v150 c0_i32_99
  let v155 : BitVec 1 := Scalar.xori v153 v154
  let c0_i32_97 : BitVec 32 := 0#32
  let v152 : BitVec 1 := Scalar.cmpi .ne v151 c0_i32_97
  let v156 : BitVec 1 := Scalar.andi v155 v152
  let v157 : BitVec 32 := Scalar.addi v151 v150
  let v158 : BitVec 32 := Scalar.select v156 v157 v151
  let c512_i32_100 : BitVec 32 := 512#32
  let v159 : BitVec 32 := Scalar.muli v158 c512_i32_100
  ![0, v159.toNat]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  bitsLt_bf16_f32 : FTy.bits .bf16 < FTy.bits .f32
  packedbf16_S1024x2048_S1024x2048_0_0 : (Rect.unit (s := S1024x2048) ![0, 0] S1024x2048.size inb_S1024x2048_S1024x2048_0_0).PackedRows (EltTy.packing .bf16)
  hamt_1 : (1#32 : BitVec 32).msb = false
  hamt_3 : (3#32 : BitVec 32).msb = false
  h_S1024x512 : 0 < S1024x512.numel
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  hcc0_scratch1 : 2 + S3.numel ≤ 8
  hcc0_scratch2 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1024x512.size a ≤ S1024x2048.size a
  k0_off2_inb : ∀ d0 : Dev nD, ∀ a, (k0_off2 d0) a + S1024x512.size a ≤ S4096x512.size a
  k0_off2_packedbf16 : ∀ d0 : Dev nD, (Rect.unit (s := S4096x512) (k0_off2 d0) S1024x512.size (k0_off2_inb d0)).PackedRows (EltTy.packing .bf16)
  k0_off3_inb : ∀ d0 : Dev nD, ∀ a, (k0_off3 d0) a + S1024x512.size a ≤ S4096x512.size a
  k0_off4_inb : ∀ d0 : Dev nD, ∀ (r : Fin 3), ∀ a, (k0_off4 d0 (BitVec.ofNat 32 (1 + r.val))) a + S1024x512.size a ≤ S1024x2048.size a
  k0_off4_wordsbf16 : ∀ d0 : Dev nD, ∀ (r : Fin 3), (Rect.unit (s := S1024x2048) (k0_off4 d0 (BitVec.ofNat 32 (1 + r.val))) S1024x512.size (k0_off4_inb d0 r)).WholeWords (EltTy.packing .bf16)
  k0_off3_wordsbf16 : ∀ d0 : Dev nD, (Rect.unit (s := S4096x512) (k0_off3 d0) S1024x512.size (k0_off3_inb d0)).WholeWords (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_off5_inb : ∀ d0 : Dev nD, ∀ (r : Fin 3), ∀ a, (k0_off5 d0 (BitVec.ofNat 32 (1 + r.val))) a + S1024x512.size a ≤ S4096x512.size a
  k0_off6_inb : ∀ d0 : Dev nD, ∀ (r : Fin 3), ∀ a, (k0_off6 d0 (BitVec.ofNat 32 (1 + r.val))) a + S1024x512.size a ≤ S1024x2048.size a
  k0_off6_wordsbf16 : ∀ d0 : Dev nD, ∀ (r : Fin 3), (Rect.unit (s := S1024x2048) (k0_off6 d0 (BitVec.ofNat 32 (1 + r.val))) S1024x512.size (k0_off6_inb d0 r)).WholeWords (EltTy.packing .bf16)
  k0_off5_wordsbf16 : ∀ d0 : Dev nD, ∀ (r : Fin 3), (Rect.unit (s := S4096x512) (k0_off5 d0 (BitVec.ofNat 32 (1 + r.val))) S1024x512.size (k0_off5_inb d0 r)).WholeWords (EltTy.packing .bf16)
  hstage0_0 : ∀ j, (stage0_0 j).IsWhole
  hstage0_1 : ∀ j, (stage0_1 j).IsWhole

variable [Facts₀]

abbrev cc0_scratch1 : DmaSems sig S3 := SemArray.consecutive 2 S3 hcc0_scratch1
abbrev cc0_scratch2 : DmaSems sig S3 := SemArray.consecutive 5 S3 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x2048 : Shape := ⟨2, ![4096, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Geom.lean ====
import proofs.«900653_g7700000000000654_dist_a2a_v7x_xyz2x4x4_y_m1024_n512_bf16_1_alg».proof.Proof.Gen.KernelIdeal
import proofs.«900653_g7700000000000654_dist_a2a_v7x_xyz2x4x4_y_m1024_n512_bf16_1_alg».proof.Proof.Gen.KernelIdeal.Skeleton
import proofs.«900653_g7700000000000654_dist_a2a_v7x_xyz2x4x4_y_m1024_n512_bf16_1_alg».proof.Proof.Gen.KernelIdeal.Launch
import Idealize.ShloMosaic.Lib.Pipeline.Launch
import Idealize.ShloMosaic.Lib.Pipeline.Kit
import Idealize.ShloMosaic.Lib.Tactic

/-!
# The geometry of the exchange: the ring of devices along the mesh axis y, and the offsets in closed form

Device c sits at mesh position (c / 16, c / 4 % 4, c % 4). Along y (four positions) every device sends
column block y' of its bf16 copy of x to the device at y' (same x and z), into the row block of the
result that the sender's own y names. Offsets are relative: transfer d (d = 0, 1, 2) goes d + 1
positions up the ring, so what arrives on receive semaphore d comes from d + 1 positions down.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ring along y -/

/-- The device's position on the mesh axis y. -/
def yOf (c : Dev nD) : ℕ := c.val / 4 % 4

theorem yOf_lt (c : Dev nD) : yOf c < 4 := Nat.mod_lt _ (by decide)

/-- The device k positions up the ring from c: same x and z, y advanced by k modulo four. -/
def peer (c : Dev nD) (k : ℕ) : Dev nD :=
  ⟨c.val - 4 * (c.val / 4 % 4) + 4 * ((c.val / 4 % 4 + k) % 4), by have h : c.val < 32 := c.isLt; show _ < 32; omega⟩

/-- Where transfer d goes: d + 1 positions up. -/
def fwd (c : Dev nD) (d : Fin 3) : Dev nD := peer c (d.val + 1)
/-- Where the transfer arriving on receive semaphore d comes from: d + 1 positions down. -/
def bwd (c : Dev nD) (d : Fin 3) : Dev nD := peer c (3 - d.val)

theorem bwd_fwd (c : Dev nD) (d : Fin 3) : bwd (fwd c d) d = c := by revert c d; decide
theorem fwd_bwd (c : Dev nD) (d : Fin 3) : fwd (bwd c d) d = c := by revert c d; decide
/-- Going down d + 1 positions is going up 3 - d. -/
theorem bwd_eq_fwd (c : Dev nD) (d : Fin 3) : bwd c d = fwd c (Fin.rev d) := by revert c d; decide
theorem yOf_fwd_ne (c : Dev nD) (d : Fin 3) : yOf (fwd c d) ≠ yOf c := by revert c d; decide
theorem yOf_fwd_inj (c : Dev nD) (d d' : Fin 3) (h : yOf (fwd c d) = yOf (fwd c d')) : d = d' := by revert c d d'; decide
theorem yOf_cover (c : Dev nD) (k : Fin 4) : k.val = yOf c ∨ ∃ d : Fin 3, k.val = yOf (fwd c d) := by
  revert c k; decide
theorem yOf_bwd (c : Dev nD) (d : Fin 3) : yOf (bwd c d) = (yOf c + 3 - d.val) % 4 := by revert c d; decide
theorem yOf_fwd (c : Dev nD) (d : Fin 3) : yOf (fwd c d) = (yOf c + d.val + 1) % 4 := by revert c d; decide

/-- The permutation c ↦ fwd c d of the devices, for dealing tokens around the ring. -/
def ringE (d : Fin 3) : Dev nD ≃ Dev nD := ⟨fun c => fwd c d, fun c => bwd c d, fun c => bwd_fwd c d, fun c => fwd_bwd c d⟩

/-- The kernel's device-id chains: signal e and transfer e both name fwd c e. -/
theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 0 := by revert c; decide +kernel
theorem dev5_eq (c : Dev nD) : (⟨k0_dev5 c, k0_dev5_lt c⟩ : Dev nD) = fwd c 1 := by revert c; decide +kernel
theorem dev6_eq (c : Dev nD) : (⟨k0_dev6 c, k0_dev6_lt c⟩ : Dev nD) = fwd c 2 := by revert c; decide +kernel

/-- The offsets in closed form: a device's row block of the result is the one its y names; the source of
    transfer d is the column block that the y of fwd c d names; the landing of receive d the row block of bwd c d. -/
theorem off1_eq (c : Dev nD) : k0_off1 c = ![0, 512 * yOf c] := k0_off1_eq c
theorem off2_eq (c : Dev nD) : k0_off2 c = ![1024 * yOf c, 0] := k0_off2_eq c
theorem off3_eq (c : Dev nD) : k0_off3 c = ![1024 * yOf c, 0] := k0_off3_eq c
theorem off4_eq (c : Dev nD) (d : Fin 3) : k0_off4 c (BitVec.ofNat 32 (1 + d.val)) = ![0, 512 * yOf (fwd c d)] := by
  revert c d; decide +kernel
theorem off5_eq (c : Dev nD) (d : Fin 3) : k0_off5 c (BitVec.ofNat 32 (1 + d.val)) = ![1024 * yOf (bwd c d), 0] := by
  revert c d; decide +kernel

end Cert.KernelIdeal.A2A

end
-- ==== Proof.Proto.lean ====
import proofs.«900653_g7700000000000654_dist_a2a_v7x_xyz2x4x4_y_m1024_n512_bf16_1_alg».proof.Proof.Geom

/-!
# Memrefs, semaphores and cells of the exchange; what the buffers hold

The result's staging buffer (4096 x 512, bf16) is cut into four row blocks of 1024 rows, one per position on y;
the bf16 copy of x (1024 x 2048) into four column blocks of 512 columns. A device keeps the row block its own y
names and lends the other three to the devices that fill them; it sends three column blocks and reads the fourth itself.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's (duties indexed by Fin 3) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def st0 : MemSt nD τ sig (Elt F) := ⟨m, fun _ => 0, ρ⟩

/-! ## Memrefs -/

abbrev xM : Memref sig .tc .vmem S1024x2048 .f32 := Memref.whole cc0_stg0_0
abbrev oM : Memref sig .tc .vmem S4096x512 .bf16 := Memref.whole cc0_stg1_0
abbrev bM : Memref sig .tc .vmem S1024x2048 .bf16 := Memref.whole cc0_scratch0

/-- The row block of the result that device p's y names: where p's transfers land, on whichever device. -/
abbrev oSl (p : Dev nD) : Memref sig .tc .vmem S1024x512 .bf16 :=
  oM.slice (Rect.unit (s := S4096x512) (k0_off3 p) S1024x512.size (k0_off3_inb p)) (fun _ => rfl)
/-- The column block of the bf16 copy that transfer d of device c sends. -/
abbrev bSl (c : Dev nD) (d : Fin 3) : Memref sig .tc .vmem S1024x512 .bf16 :=
  bM.slice (Rect.unit (s := S1024x2048) (k0_off4 c (BitVec.ofNat 32 (1 + d.val))) S1024x512.size (k0_off4_inb c d)) (fun _ => rfl)

/-! ## Semaphores and cells -/

abbrev barS : Sem sig := (SemArray.scalar (sig.barrier 0 rfl) : Sems sig S_).sem
/-- The send and receive DMA semaphores of transfer d: entries d of the two scratch arrays. -/
def sendSem (d : Fin 3) : DmaSem sig := ⟨2 + d.val, by have := d.isLt; show _ < 8; omega⟩
def recvSem (d : Fin 3) : DmaSem sig := ⟨5 + d.val, by have := d.isLt; show _ < 8; omega⟩

example : ((cc0_scratch1.slice (Rect.unit (s := S3) ![0] S1.size inb_S3_S1_0)).squeeze S_ squeezes_S1_S_).sem = sendSem 0 := rfl
example : ((cc0_scratch1.slice (Rect.unit (s := S3) ![2] S1.size inb_S3_S1_2)).squeeze S_ squeezes_S1_S_).sem = sendSem 2 := rfl
example : ((cc0_scratch2.slice (Rect.unit (s := S3) ![1] S1.size inb_S3_S1_1)).squeeze S_ squeezes_S1_S_).sem = recvSem 1 := rfl

abbrev barCell (c : Dev nD) : GSem nD τ sig := ((c : Thread nD τ), .reg barS)
abbrev sendCell (c : Dev nD) (d : Fin 3) : GSem nD τ sig := ((c : Thread nD τ), .dma (sendSem d))
abbrev recvCell (c : Dev nD) (d : Fin 3) : GSem nD τ sig := ((c : Thread nD τ), .dma (recvSem d))

/-- The credit of one transfer: that of a 1024 x 512 bf16 block. -/
abbrev N : ℕ := (oSl (0 : Dev nD)).view.dmaCredit
theorem N_pos : 0 < N := View.dmaCredit_pos _ (by decide)
example (p : Dev nD) : (oSl p).view.dmaCredit = N := rfl
example (c : Dev nD) (d : Fin 3) : (bSl c d).view.dmaCredit = N := rfl

/-! ## Contents -/

/-- The point of the one-point grid. -/
theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device c's block of x, as its staging buffer holds it. -/
def xstg (c : Dev nD) : (cc0_stg0_0 : Ref sig .tc).ty.Contents (Elt F) :=
  (win0_0.blk t₀).view.read (Elt F) ((st0 m ρ).mem ((c : Thread nD τ).loc main_arg0))

/-- Device c's bf16 copy of its block of x. -/
def xbv (c : Dev nD) : (cc0_scratch0 : Ref sig .tc).ty.Contents (Elt F) := k0_pay1 (xstg m ρ c)

/-- The device on c's ring (same x and z) at position k of y. -/
def atY (c : Dev nD) (k : ℕ) : Dev nD := peer c (k + 4 - yOf c)

/-- What device c's result buffer holds in the end: row block k is column block (yOf c) of the bf16 copy of
    the device at position k of c's ring. -/
def outAt (c : Dev nD) : (cc0_stg1_0 : Ref sig .tc).ty.Contents (Elt F) := fun i =>
  xbv m ρ (atY c ((i 0).val / 1024))
    (Shape.pair (d := ![1024, 2048]) (⟨(i 0).val % 1024, Nat.mod_lt _ (by decide)⟩ : Fin 1024)
      (⟨512 * yOf c + (i 1).val, by have h1 : (i 1).val < 512 := (i 1).isLt; have := yOf_lt c; omega⟩ : Fin 2048))

end Cert.KernelIdeal.A2A

end
-- ==== Proof.Sched.lean ====
import proofs.«900653_g7700000000000654_dist_a2a_v7x_xyz2x4x4_y_m1024_n512_bf16_1_alg».proof.Proof.Proto

/-!
# The schedule of the exchange under the rounds discipline

One round. A device's barrier cell has three duties of one unit each: duty e is paid by the device e + 1
positions down the ring (its signal e), and hands over the row block of THAT device's result buffer which
this device's y names (where this device's transfer to it will land) together with the fact that the
lender has reached round 0 of the receive cell the transfer credits. Receive cell d has one duty, paid by
the transfer from d + 1 positions down; it hands back the lent row block holding its final contents. Send
cell d has one duty, paid by the device's own transfer d; it hands back the column block that was sent.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem fwd_fwd_rev (c : Dev nD) (e : Fin 3) : fwd (fwd c e) (Fin.rev e) = c := by revert c e; decide
theorem bwd_bwd_rev (c : Dev nD) (e : Fin 3) : bwd (bwd c e) (Fin.rev e) = c := by revert c e; decide
theorem fwd_rev_eq_bwd (c : Dev nD) (e : Fin 3) : fwd c (Fin.rev e) = bwd c e := by revert c e; decide
theorem fwd_ne_self (c : Dev nD) (e : Fin 3) : fwd c e ≠ c := by revert c e; decide

/-! ## Which semaphore is which -/

/-- The index of a receive semaphore, and of a send semaphore. -/
def recvIdx : SemLoc sig → Option (Fin 3)
  | .dma q => if h : 5 ≤ q.val ∧ q.val < 8 then some ⟨q.val - 5, by omega⟩ else none
  | .reg _ => none
def sendIdx : SemLoc sig → Option (Fin 3)
  | .dma q => if h : 2 ≤ q.val ∧ q.val < 5 then some ⟨q.val - 2, by omega⟩ else none
  | .reg _ => none

theorem recvIdx_recv (d : Fin 3) : recvIdx (.dma (recvSem d)) = some d := by revert d; decide
theorem sendIdx_send (d : Fin 3) : sendIdx (.dma (sendSem d)) = some d := by revert d; decide
theorem recvIdx_send (d : Fin 3) : recvIdx (.dma (sendSem d)) = none := by revert d; decide
theorem sendIdx_recv (d : Fin 3) : sendIdx (.dma (recvSem d)) = none := by revert d; decide
theorem recvIdx_bar : recvIdx (.reg barS) = none := rfl
theorem sendIdx_bar : sendIdx (.reg barS) = none := rfl
theorem send_ne_bar (d : Fin 3) : (SemLoc.dma (sendSem d) : SemLoc sig) ≠ .reg barS := fun h => by cases h
theorem recv_ne_bar (d : Fin 3) : (SemLoc.dma (recvSem d) : SemLoc sig) ≠ .reg barS := fun h => by cases h
theorem recv_ne_send (d d' : Fin 3) : (SemLoc.dma (recvSem d) : SemLoc sig) ≠ .dma (sendSem d') := by revert d d'; decide
theorem recvSem_inj (d d' : Fin 3) (h : (SemLoc.dma (recvSem d) : SemLoc sig) = .dma (recvSem d')) : d = d' := by
  revert d d'; decide
theorem sendSem_inj (d d' : Fin 3) (h : (SemLoc.dma (sendSem d) : SemLoc sig) = .dma (sendSem d')) : d = d' := by
  revert d d'; decide

/-! ## Payloads -/

/-- What the signal of the device e + 1 positions down (duty e of c's barrier cell) hands c: the row block of
    that device's result buffer which c's y names, at any contents, and that the lender has reached round 0 of the
    receive cell c's transfer to it credits. -/
def barPay (c : Dev nD) (e : Fin 3) : sProp 𝕄 :=
  iprop((∃ f, (oSl c).view.loc (bwd c e : Thread nD τ) ↦[(oSl c).view.set]{fullShare} f) ∗ reached ER (recvCell (bwd c e) (Fin.rev e)) 0)
/-- What the transfer arriving on receive semaphore d hands c: the row block its sender's y names, holding what
    the result holds there in the end. -/
def recvPay (c : Dev nD) (d : Fin 3) : sProp 𝕄 :=
  (oSl (bwd c d)).view.loc (c : Thread nD τ) ↦[(oSl (bwd c d)).view.set]{fullShare} outAt m ρ c
/-- What c's own transfer d hands back on its send semaphore: the column block it sent, unchanged. -/
def sendPay (c : Dev nD) (d : Fin 3) : sProp 𝕄 :=
  (bSl c d).view.loc (c : Thread nD τ) ↦[(bSl c d).view.set]{fullShare} xbv m ρ c

abbrev IsBar (g : GSem nD τ sig) : Prop := g.1.2 = .tc ∧ g.2 = .reg barS
abbrev IsXfer (g : GSem nD τ sig) : Prop := g.1.2 = .tc ∧ ((recvIdx g.2).isSome ∨ (sendIdx g.2).isSome)

/-- The one round. -/
def Rd : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match recvIdx g.2 with
      | some e => recvPay m ρ g.1.1 e
      | none => match sendIdx g.2 with
        | some e => sendPay m ρ g.1.1 e
        | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 3) :
    BI.Storable (upEmb : UEmb _ 𝕄) ((Rd (F := F) m ρ).payload g r d) := by
  show BI.Storable upEmb (if g.2 = .reg barS then barPay g.1.1 d
    else match recvIdx g.2 with
      | some e => recvPay m ρ g.1.1 e
      | none => match sendIdx g.2 with
        | some e => sendPay m ρ g.1.1 e
        | none => iprop(emp))
  unfold barPay recvPay sendPay
  (repeat' split) <;> infer_instance

section Sched
variable (c : Dev nD) (d : Fin 3)

theorem not_bar_send : ¬ IsBar (sendCell c d) := fun h => send_ne_bar d h.2
theorem not_bar_recv : ¬ IsBar (recvCell c d) := fun h => recv_ne_bar d h.2

theorem duties_bar : (Rd (F := F) m ρ).duties (barCell c) 0 = Finset.univ := by dsimp only [Rd]; exact if_pos ⟨rfl, rfl, rfl⟩
theorem duties_send : (Rd (F := F) m ρ).duties (sendCell c d) 0 = {0} := by
  dsimp only [Rd]; rw [if_neg (fun h => not_bar_send c d h.2)]
  exact if_pos ⟨rfl, rfl, .inr (by rw [sendIdx_send]; rfl)⟩
theorem duties_recv : (Rd (F := F) m ρ).duties (recvCell c d) 0 = {0} := by
  dsimp only [Rd]; rw [if_neg (fun h => not_bar_recv c d h.2)]
  exact if_pos ⟨rfl, rfl, .inl (by rw [recvIdx_recv]; rfl)⟩
theorem duties_later (g : GSem nD τ sig) : ∀ r, 1 ≤ r → (Rd (F := F) m ρ).duties g r = ∅ :=
  fun r hr => by dsimp only [Rd]; rw [if_neg fun h => by omega, if_neg fun h => by omega]

theorem amount_bar (e : Fin 3) : (Rd (F := F) m ρ).amount (barCell c) 0 e = 1 := by dsimp only [Rd]; exact if_pos rfl
theorem amount_send (e : Fin 3) : (Rd (F := F) m ρ).amount (sendCell c d) 0 e = N := by dsimp only [Rd]; exact if_neg (send_ne_bar d)
theorem amount_recv (e : Fin 3) : (Rd (F := F) m ρ).amount (recvCell c d) 0 e = N := by dsimp only [Rd]; exact if_neg (recv_ne_bar d)

theorem expect_bar : (Rd (F := F) m ρ).expect (barCell c) 0 = 3 := by
  unfold Schedule.expect Schedule.amountOf
  rw [duties_bar, Finset.sum_congr rfl fun e _ => amount_bar m ρ c e, Finset.sum_const, Finset.card_univ, Fintype.card_fin, smul_eq_mul]
theorem expect_send : (Rd (F := F) m ρ).expect (sendCell c d) 0 = N := by
  unfold Schedule.expect Schedule.amountOf; rw [duties_send, Finset.sum_singleton, amount_send]
theorem expect_recv : (Rd (F := F) m ρ).expect (recvCell c d) 0 = N := by
  unfold Schedule.expect Schedule.amountOf; rw [duties_recv, Finset.sum_singleton, amount_recv]

theorem payload_bar (e : Fin 3) : (Rd (F := F) m ρ).payload (barCell c) 0 e = barPay c e := by dsimp only [Rd]; rw [if_pos rfl]
theorem payload_send (e : Fin 3) : (Rd (F := F) m ρ).payload (sendCell c d) 0 e = sendPay m ρ c d := by
  dsimp only [Rd]; rw [if_neg (send_ne_bar d)]; simp only [recvIdx_send, sendIdx_send]
theorem payload_recv (e : Fin 3) : (Rd (F := F) m ρ).payload (recvCell c d) 0 e = recvPay m ρ c d := by
  dsimp only [Rd]; rw [if_neg (recv_ne_bar d)]; simp only [recvIdx_recv]

theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The rest of the barrier cell's round, no duty taken: the three lenders' payloads. -/
theorem rest_bar : bigSep ((Rd (F := F) m ρ).duties (barCell c) 0 \ ∅) (fun e => (Rd (F := F) m ρ).payload (barCell c) 0 e)
    = iprop(barPay c 0 ∗ barPay c 1 ∗ barPay c 2) := by
  rw [Finset.sdiff_empty, duties_bar, bigSep_fin3, payload_bar, payload_bar, payload_bar]
theorem rest_send : bigSep ((Rd (F := F) m ρ).duties (sendCell c d) 0 \ ∅) (fun e => (Rd (F := F) m ρ).payload (sendCell c d) 0 e) = sendPay m ρ c d := by
  rw [Finset.sdiff_empty, duties_send, bigSep_singleton, payload_send]
theorem rest_recv : bigSep ((Rd (F := F) m ρ).duties (recvCell c d) 0 \ ∅) (fun e => (Rd (F := F) m ρ).payload (recvCell c d) 0 e) = recvPay m ρ c d := by
  rw [Finset.sdiff_empty, duties_recv, bigSep_singleton, payload_recv]

end Sched

end Cert.KernelIdeal.A2A

end
-- ==== Proof.Data.lean ====
import proofs.«900653_g7700000000000654_dist_a2a_v7x_xyz2x4x4_y_m1024_n512_bf16_1_alg».proof.Proof.Sched

/-!
# What each device owes at launch, the levels of the cells, and the pipeline's proof data

A device owes each of its three ring neighbours one unit on their barrier cell (its signals) and the credit of a
block on the receive cell its transfer to them completes on. Barrier cells sit at level 1, receive cells at
level 2, every other cell (staging, send) at level 0: a device waits on its barrier owing only receive credit,
and on its receive and send cells owing nothing.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What each core owes at launch; the levels -/

/-- The receive credit of the three transfers, summed so that transfer 0 peels the last summand. -/
def OR (c : Dev nD) : CellTallies nD τ sig Unit :=
  tallyAt (recvCell (fwd c 2) 2) () N + tallyAt (recvCell (fwd c 1) 1) () N + tallyAt (recvCell (fwd c 0) 0) () N
/-- With the barrier units, summed so that signal 0 peels the last summand, signal 1 the next. -/
def O₂ (c : Dev nD) : CellTallies nD τ sig Unit := OR c + tallyAt (barCell (fwd c 2)) () 1
def O₁ (c : Dev nD) : CellTallies nD τ sig Unit := O₂ c + tallyAt (barCell (fwd c 1)) () 1
def O₀ (c : Dev nD) : CellTallies nD τ sig Unit := O₁ c + tallyAt (barCell (fwd c 0)) () 1

def L (g : GSem nD τ sig) : Finset Unit := if g.1.2 = .tc then {()} else ∅
/-- Barrier cells at 1, receive cells at 2, everything else (staging, send) at 0. -/
def lv (g : GSem nD τ sig) (_ : Unit) : ℕ := if g.2 = .reg barS then 1 else if (recvIdx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (d : Fin 3) (u : Unit) : lv (recvCell c d) u = 2 := by
  dsimp only [lv]; rw [if_neg (recv_ne_bar d), recvIdx_recv]; rfl

theorem OR_pos {c : Dev nD} {g : GSem nD τ sig} {u : Unit} (h : 0 < OR c g u) : ∃ d, g = recvCell (fwd c d) d := by
  unfold OR at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ d, g = recvCell (fwd c d) d) ∨ (∃ e, g = barCell (fwd c e)) := by
  unfold O₀ O₁ O₂ at h
  rw [Pi.add_apply, Finsupp.add_apply, Pi.add_apply, Finsupp.add_apply, Pi.add_apply, Finsupp.add_apply,
    tallyAt_apply, tallyAt_apply, tallyAt_apply] at h
  by_contra hn
  rw [not_or, not_exists, not_exists] at hn
  rw [if_neg (fun h' => hn.2 2 h'.1), if_neg (fun h' => hn.2 1 h'.1), if_neg (fun h' => hn.2 0 h'.1)] at h
  have : 0 < OR c g u := by omega
  exact hn.1 _ (OR_pos this).choose_spec

/-- A staging or send cell (level 0) may be waited on owing the launch debt or nothing. -/
theorem mayWait_stage (c : Dev nD) (q : DmaSem sig) (hq : recvIdx (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, rfl⟩ | ⟨e, rfl⟩ <;> exact Finset.mem_singleton_self _)
      (fun p hp => by rw [Finset.mem_singleton.mp hp]; dsimp only [lv]; rw [if_neg (fun h => by cases h), hq]; rfl)
      (fun g u hg => by
        rcases O₀_pos hg with ⟨d, rfl⟩ | ⟨e, rfl⟩
        · rw [lv_recv]; decide
        · rw [lv_bar]; decide)
  · rw [MayWait_zero]; iintro -; iempintro

/-- At its barrier wait a device owes receive credit only: receive cells, above its barrier cell. -/
theorem mayWait_bar (c : Dev nD) :
    (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨d, rfl⟩ := OR_pos hg; exact Finset.mem_singleton_self _)
    (fun p hp => by rw [Finset.mem_singleton.mp hp]; exact le_of_eq (lv_bar c ()))
    (fun g u hg => by obtain ⟨d, rfl⟩ := OR_pos hg; rw [lv_recv]; decide)

/-! ## The cells, named -/

/-- A device's seven cells: its barrier cell, its three send cells, its three receive cells. -/
def csem : Fin 7 → SemLoc sig
  | 0 => .reg barS | 1 => .dma (sendSem 0) | 2 => .dma (sendSem 1) | 3 => .dma (sendSem 2)
  | 4 => .dma (recvSem 0) | 5 => .dma (recvSem 1) | 6 => .dma (recvSem 2)
abbrev kcell (ck : Dev nD × Fin 7) : GSem nD τ sig := ((ck.1 : Thread nD τ), csem ck.2)
def sIx (d : Fin 3) : Fin 7 := ⟨1 + d.val, by omega⟩
def rIx (d : Fin 3) : Fin 7 := ⟨4 + d.val, by omega⟩
theorem csem_sIx (d : Fin 3) : csem (sIx d) = .dma (sendSem d) := by revert d; decide
theorem csem_rIx (d : Fin 3) : csem (rIx d) = .dma (recvSem d) := by revert d; decide
theorem kcell_bar (c : Dev nD) : kcell (c, 0) = barCell c := rfl
theorem kcell_send (c : Dev nD) (d : Fin 3) : kcell (c, sIx d) = sendCell c d := by unfold kcell; rw [csem_sIx]
theorem kcell_recv (c : Dev nD) (d : Fin 3) : kcell (c, rIx d) = recvCell c d := by unfold kcell; rw [csem_rIx]

/-! ## The ghost state a device's body starts from -/

/-- The cell invariants device c's body opens, under the names K the launch allocated them at: its own seven, its
    three neighbours' barrier cells (its signals), and the receive cells its transfers complete on. -/
def invs (K : Dev nD × Fin 7 → ℕ) (c : Dev nD) : sProp 𝕄 :=
  iprop(cellInv ER (Rd m ρ) (K (c, 0)) (barCell c)
    ∗ (bigSep Finset.univ fun d : Fin 3 => cellInv ER (Rd m ρ) (K (c, sIx d)) (sendCell c d))
    ∗ (bigSep Finset.univ fun d : Fin 3 => cellInv ER (Rd m ρ) (K (c, rIx d)) (recvCell c d))
    ∗ (bigSep Finset.univ fun e : Fin 3 => cellInv ER (Rd m ρ) (K (fwd c e, 0)) (barCell (fwd c e)))
    ∗ (bigSep Finset.univ fun d : Fin 3 => cellInv ER (Rd m ρ) (K (fwd c d, rIx d)) (recvCell (fwd c d) d)))

instance invs_persistent (K : Dev nD × Fin 7 → ℕ) (c : Dev nD) : BI.Persistent (invs m ρ K c) := by unfold invs; infer_instance

/-- The positions of its own cells, the reached-marks of every cell it pays or waits on, and the tokens of the
    duties it pays: duty e of the barrier cell of fwd c e, the one duty of the receive cell of fwd c d its transfer d
    completes on, the one duty of its own send cell d. -/
def ghost (K : Dev nD × Fin 7 → ℕ) (c : Dev nD) : sProp 𝕄 :=
  iprop(invs m ρ K c
    ∗ atPos ER (barCell c) 0 ∅ 0
    ∗ (bigSep Finset.univ fun d : Fin 3 => atPos ER (sendCell c d) 0 ∅ 0)
    ∗ (bigSep Finset.univ fun d : Fin 3 => atPos ER (recvCell c d) 0 ∅ 0)
    ∗ (bigSep Finset.univ fun e : Fin 3 => reached ER (barCell (fwd c e)) 0)
    ∗ (bigSep Finset.univ fun d : Fin 3 => reached ER (recvCell (fwd c d) d) 0)
    ∗ (bigSep Finset.univ fun d : Fin 3 => reached ER (sendCell c d) 0)
    ∗ (bigSep Finset.univ fun d : Fin 3 => reached ER (recvCell c d) 0)
    ∗ (bigSep Finset.univ fun e : Fin 3 => dutyTok ER (barCell (fwd c e)) 0 e)
    ∗ (bigSep Finset.univ fun d : Fin 3 => dutyTok ER (recvCell (fwd c d) d) 0 0)
    ∗ (bigSep Finset.univ fun d : Fin 3 => dutyTok ER (sendCell c d) 0 0))

/-- What device c's body starts from: that at some names, the credit tokens its waits consume (three units on its
    barrier cell, a block's credit on each receive cell) and the level facts. -/
def start (c : Dev nD) : sProp 𝕄 :=
  iprop((∃ K, ghost m ρ K c) ∗ cred (tallyAt (barCell c) () 3)
    ∗ (bigSep Finset.univ fun d : Fin 3 => cred (tallyAt (recvCell c d) () N)) ∗ levAts L lv)

/-- Before the point: that, and the bf16 scratch at any contents. -/
def Φ₀ (c : Dev nD) : sProp 𝕄 := iprop(start m ρ c ∗ ∃ f : Buf (Elt F) ((c : Thread nD τ).loc cc0_scratch0), ((c : Thread nD τ).loc cc0_scratch0) ↦{fullShare} f)
/-- After the point: the scratch back whole, the six own DMA cells at zero, closed. -/
def Φ₁ (c : Dev nD) : sProp 𝕄 :=
  iprop((∃ f : Buf (Elt F) ((c : Thread nD τ).loc cc0_scratch0), ((c : Thread nD τ).loc cc0_scratch0) ↦{fullShare} f)
    ∗ (bigSep Finset.univ fun d : Fin 3 => semVal (sendCell c d) 0) ∗ (bigSep Finset.univ fun d : Fin 3 => semVal (recvCell c d) 0))

/-! ## The pipeline's proof data -/

def dats (_ : Fin 1) (c : Dev nD) : Dat τ (Elt F) Unit ℕ UU ℕ cfg0 c where
  A w := (st0 m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body of device c is entered with, and what it leaves. -/
def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

end Cert.KernelIdeal.A2A

end
-- ==== Proof.Value.lean ====
import proofs.«900653_g7700000000000654_dist_a2a_v7x_xyz2x4x4_y_m1024_n512_bf16_1_alg».proof.Proof.Data
import proofs.«900653_g7700000000000654_dist_a2a_v7x_xyz2x4x4_y_m1024_n512_bf16_1_alg».proof.Defs
import proofs.«900653_g7700000000000654_dist_a2a_v7x_xyz2x4x4_y_m1024_n512_bf16_1_alg».proof.Proof.Gen.KernelIdeal.Points
import proofs.«900653_g7700000000000654_dist_a2a_v7x_xyz2x4x4_y_m1024_n512_bf16_1_alg».proof.Proof.Gen.ReferenceIdeal.Run
import proofs.«900653_g7700000000000654_dist_a2a_v7x_xyz2x4x4_y_m1024_n512_bf16_1_alg».proof.Proof.Gen.ReferenceIdeal.Read
import proofs.«900653_g7700000000000654_dist_a2a_v7x_xyz2x4x4_y_m1024_n512_bf16_1_alg».proof.Proof.Gen.Pre_finite_inputs_Kernel
import proofs.«900653_g7700000000000654_dist_a2a_v7x_xyz2x4x4_y_m1024_n512_bf16_1_alg».proof.Proof.Gen.Pre_finite_inputs_ReferenceIdeal
import Idealize.ShloMosaic.Lib.Layout
import Idealize.ShloMosaic.Lib.Pipeline.Value
import Idealize.ShloMosaic.Lib.ValueIdx

/-!
# The value of the exchange at the ideal instance

Device c at position y of its ring ends with a result buffer whose row block k is column block y of the bf16
copy of the block of x held by the ring's device at position k. Over the extended reals the narrowing to bf16
changes no entry, and the block of x held by the device at position k is row block k of the whole array: so row
r = 1024 k + r' and column l of c's result is entry (r, 512 y + l) of the whole array, that is, entry (r, l) of column
block y of the whole array narrowed. That is what the comparison asks of device c.

The first section reads the two arrays after the run off the pipeline's data: the argument array is an input
window's and is never written; the result array is written back once, whole, from the result staging buffer. The
second is the index equation. The last assembles the claims from a run of the exchange stated over that data.
-/

noncomputable section

namespace Cert.KernelIdeal.A2AValue

open Cert.KernelIdeal Cert.KernelIdeal.Gen Cert.KernelIdeal.A2A

open Idealize.ShloMosaic
open Idealize.ShloMosaic.TcCoe
open Idealize.SL Idealize.SL.Sem
open Idealize.ShloMosaic.Pipeline (Dat Cfg Window)

section Arrays

variable {F : FTy → Type} [FloatOps F]
variable (m : (ℓ : Loc nD τ sig) → Buf (Elt F) ℓ) (ρ : Dev nD → PrngReg)

/-- The argument array after the run is the argument array before it: its window is an input's. -/
theorem in_final (c : Dev nD) :
    (dats (F := F) m ρ 0 c).arrAt (0 : Fin 2) cfg0.N = m ((c : Thread nD τ).loc main_arg0) :=
  (dats (F := F) m ρ 0 c).arrAt_in (0 : Fin 2) rfl _

/-- The result array after the run is what the result staging buffer held at the end: the one point writes the
    window back, its block is the whole array (block index zero on both axes), and the write is unmasked. -/
theorem out_final (c : Dev nD) :
    (dats (F := F) m ρ 0 c).arrAt (1 : Fin 2) cfg0.N = outAt m ρ c := by
  have hs := (dats (F := F) m ρ 0 c).arrAt_succ (1 : Fin 2) t₀
  rw [if_pos (flush0_1 t₀)] at hs
  refine hs.trans ?_
  have hz : (fun a => win0_1.index t₀ a * main_v1.ty.shape.size a) = fun _ => 0 :=
    funext fun a => Nat.zero_mul _
  exact Memref.write_access_unit_zero_univ (Elt F) main_v1 hz
    (fun a => by rw [show win0_1.index t₀ a = 0 from rfl, Nat.zero_mul, Nat.zero_add]) _ (outAt m ρ c)

/-- What the argument's staging buffer is fetched with is the whole argument array: the window's one block,
    at block index zero on both axes, is the array. -/
theorem xstg_eq (c : Dev nD) : xstg m ρ c = m ((c : Thread nD τ).loc main_arg0) := by
  have hz : (fun a => win0_0.index t₀ a * main_arg0.ty.shape.size a) = fun _ => 0 :=
    funext fun a => Nat.zero_mul _
  exact Memref.read_access_unit_zero (Elt F) main_arg0 hz
    (fun a => by rw [show win0_0.index t₀ a = 0 from rfl, Nat.zero_mul, Nat.zero_add]) _

end Arrays

section Value

variable (m : (ℓ : Loc nD τ sig) → Buf (Elt Ideal) ℓ) (ρ : Dev nD → PrngReg)

/-- The reference's whole argument array (4096 x 2048, f32) and its whole result array (bf16), on its one device. -/
abbrev RArg : Type :=
  Buf (Elt Ideal) (((0 : Dev Cert.ReferenceIdeal.nD).tc : Thread Cert.ReferenceIdeal.nD Cert.ReferenceIdeal.τ).loc Cert.ReferenceIdeal.main_arg0)
abbrev ROut : Type :=
  Buf (Elt Ideal) (((0 : Dev Cert.ReferenceIdeal.nD).tc : Thread Cert.ReferenceIdeal.nD Cert.ReferenceIdeal.τ).loc Cert.ReferenceIdeal.main_v0)

/-- What the reference computes of the whole array: its narrowing to bf16, entry by entry. -/
def refOut (X : RArg) : ROut :=
  truncf (F := Ideal) (s := Cert.ReferenceIdeal.S4096x2048) (φ := .f32) .bf16 X Cert.ReferenceIdeal.Gen.bitsLt_bf16_f32

/-- Over the extended reals the narrowing is the identity. -/
theorem refOut_apply (X : RArg) (j : Cert.ReferenceIdeal.S4096x2048.Idx) : refOut X j = X j := rfl

/-- The bf16 copy holds, entry by entry, what the block of x holds: both shape casts are to the same shape and
    the narrowing is the identity on extended reals. -/
theorem xbv_apply (c : Dev nD) (j : S1024x2048.Idx) : xbv m ρ c j = xstg m ρ c j := by
  unfold xbv k0_pay1
  rw [shapeCast_self, ValueIdx.truncf_apply, shapeCast_self]

/-- The ring's device at position k sits at position k. -/
theorem yOf_atY : ∀ (c : Dev nD) (k : Fin 4), yOf (atY c k.val) = k.val := by decide

/-- The argument is cut along its rows by the mesh axis y: device c holds row block y, the one column block. -/
theorem blk_in (c : Dev nD) : ((Layout.meshBlock [2, 4, 4] ![[1], []] c) 0).val = yOf c
    ∧ ((Layout.meshBlock [2, 4, 4] ![[1], []] c) 1).val = 0 := by
  revert c; decide

/-- The result is cut along its columns by the mesh axis y: device c holds the one row block, column block y. -/
theorem blk_out (c : Dev nD) : ((Layout.meshBlock [2, 4, 4] ![[], [1]] c) 0).val = 0
    ∧ ((Layout.meshBlock [2, 4, 4] ![[], [1]] c) 1).val = yOf c := by
  revert c; decide

/-- If every device's argument buffer holds its row block of the whole array X, then what device c's result
    buffer holds in the end is its column block of X narrowed. At row r and column l: the left side reads the
    block of the ring's device at position r / 1024 at (r % 1024, 512 y + l), which is X at
    (1024 (r / 1024) + r % 1024, 512 y + l); the right side reads X at (r, 512 y + l). -/
theorem value (X : RArg)
    (hagree : ∀ c : Dev nD, m ((c.tc : Thread nD τ).loc main_arg0)
      = Layout.blockN ⟨2, ![1024, 2048]⟩ ⟨2, ![4096, 2048]⟩ (Layout.meshBlock [2, 4, 4] ![[1], []] c) X)
    (c : Dev nD) :
    outAt m ρ c = Layout.blockN ⟨2, ![4096, 512]⟩ ⟨2, ![4096, 2048]⟩ (Layout.meshBlock [2, 4, 4] ![[], [1]] c) (refOut X) := by
  funext i
  have h0 : (i 0).val < 4096 := (i 0).isLt
  have h1 : (i 1).val < 512 := (i 1).isLt
  have hk : (i 0).val / 1024 < 4 := by omega
  unfold outAt
  rw [xbv_apply, xstg_eq, hagree]
  rw [Layout.blockN_apply, Layout.blockN_apply, refOut_apply]
  refine congrArg X (funext fun a => Fin.ext ?_)
  have e1 := blk_in (atY c ((i 0).val / 1024))
  have e2 := blk_out c
  have e3 : yOf (atY c ((i 0).val / 1024)) = (i 0).val / 1024 := yOf_atY c ⟨(i 0).val / 1024, hk⟩
  obtain ⟨a, ha⟩ := a
  have ha' : a < 2 := ha
  interval_cases a
  · show ((Layout.meshBlock [2, 4, 4] ![[1], []] (atY c ((i 0).val / 1024))) 0).val * 1024 + (i 0).val % 1024
      = ((Layout.meshBlock [2, 4, 4] ![[], [1]] c) 0).val * 4096 + (i 0).val
    rw [e1.1, e2.1, e3]; omega
  · show ((Layout.meshBlock [2, 4, 4] ![[1], []] (atY c ((i 0).val / 1024))) 1).val * 2048 + (512 * yOf c + (i 1).val)
      = ((Layout.meshBlock [2, 4, 4] ![[], [1]] c) 1).val * 512 + (i 1).val
    rw [e1.2, e2.2]; omega

end Value

section Claims

/-- The reference's run keeps its argument: its generated run with the result dropped. -/
theorem ref_frame : Cert.frame_ReferenceIdeal := fun m ρ _ =>
  (θ_run Cert.ReferenceIdeal.defs _ _).mono (fun _ h c => (h c).2) (Cert.ReferenceIdeal.Value.run (F := Ideal) m ρ)

/-- The reference's run in the form the comparison takes: its result array ends at the narrowing of its
    argument array, which ends as it began. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v0)
        = refOut (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
        = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => ⟨(h 0).1, (h 0).2⟩) (Cert.ReferenceIdeal.Value.run (F := Ideal) m' ρ')

/-- The exchange's run as the launch states it: every window's array ends at what the pipeline's data names. -/
abbrev Ran : Prop :=
  ∀ (m : (ℓ : Loc nD τ sig) → Buf (Elt Ideal) ℓ) (ρ : Dev nD → PrngReg),
    θ_run (Cert.KernelIdeal.defs (F := Ideal)) (onTc (τ := τ) (main (F := Ideal))) (st0 m ρ)
      (fun r => ∀ (c : Dev nD) (w : Fin cfg0.W),
        r.2.mem ((cfg0.win w).arr.view.loc (c : Thread nD τ)) = (dats m ρ 0 c).arrAt w cfg0.N)

/-- The argument array is an input window's: no write-back touches it. -/
theorem frame_of_ran (hrun : Ran) : Cert.frame_KernelIdeal := fun m ρ _ =>
  (θ_run Cert.KernelIdeal.defs _ _).mono (fun _ h c => (h c (0 : Fin 2)).trans (in_final m ρ c)) (hrun m ρ)

/-- Each device's result array ends at its result staging buffer's final contents, which are its column block of the
    narrowed whole array; the reference's result array ends at the narrowed whole array. -/
theorem algebraic_of_ran (hrun : Ran) : Cert.algebraic_KernelIdeal_ReferenceIdeal := by
  intro m ρ m' ρ' _ hagree
  refine ⟨refOut (m' _), ?_, ref_run m' ρ'⟩
  exact (θ_run Cert.KernelIdeal.defs _ _).mono
    (fun _ h c => ⟨(h c (1 : Fin 2)).trans ((out_final m ρ c).trans (value m ρ _ hagree c)),
      (h c (0 : Fin 2)).trans (in_final m ρ c)⟩) (hrun m ρ)

end Claims

/-- info: 'Cert.KernelIdeal.A2AValue.algebraic_of_ran' depends on axioms: [propext, Classical.choice, Quot.sound] -/
#guard_msgs in #print axioms algebraic_of_ran
/-- info: 'Cert.KernelIdeal.A2AValue.frame_of_ran' depends on axioms: [propext, Classical.choice, Quot.sound] -/
#guard_msgs in #print axioms frame_of_ran
/-- info: 'Cert.KernelIdeal.A2AValue.ref_frame' depends on axioms: [propext, Classical.choice, Quot.sound] -/
#guard_msgs in #print axioms ref_frame

end Cert.KernelIdeal.A2AValue

end
-- ==== Proof.Launch.lean ====
import proofs.«900653_g7700000000000654_dist_a2a_v7x_xyz2x4x4_y_m1024_n512_bf16_1_alg».proof.Proof.Data

/-!
# The launch: the ghost state dealt around the ring, the launch credit, and the run of the whole mesh

The launch element funds, per device, the round state, position and reached-mark of its seven cells and the duty
tokens of those cells. One global step closes every cell's invariant over its counter at zero and deals the tokens
to the devices that pay them: duty e of a barrier cell to the device e + 1 positions down the ring, the one duty of
a receive cell d to the device d + 1 positions down, the one duty of a send cell to its own device. The credit a
device waits with is what the others owe its cells: three units on its barrier cell, a block's credit on each
receive cell.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The own semaphores, the cells and the tokens of the launch element -/

/-- The kernel's own scoped semaphores as the launch indexes them: the three send, then the three receive ones. -/
abbrev osem : Fin 6 → SemLoc sig
  | 0 => .dma (sendSem 0) | 1 => .dma (sendSem 1) | 2 => .dma (sendSem 2)
  | 3 => .dma (recvSem 0) | 4 => .dma (recvSem 1) | 5 => .dma (recvSem 2)

theorem ownSemFacts : Pipeline.OwnSemFacts cfg0.spec osem := by decide

theorem share_eq (c : Dev nD) (w : Fin cfg0.W) : (dats m ρ 0 c).share w = fullShare := by unfold Dat.share; split <;> rfl

theorem csem_injective : Function.Injective csem := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- The nine duty tokens of a device's own cells, as minted: which cell, which duty. -/
def tk : Fin 9 → Fin 7 := ![0, 0, 0, 1, 2, 3, 4, 5, 6]
def td : Fin 9 → Fin 3 := ![0, 1, 2, 0, 0, 0, 0, 0, 0]
theorem tkd_injective : Function.Injective (fun j : Fin 9 => (tk j, td j)) := by decide
abbrev tokOf (cj : Dev nD × Fin 9) : GSem nD τ sig × ℕ × Fin 3 := (kcell (cj.1, tk cj.2), 0, td cj.2)
theorem tokOf_injective : Function.Injective (tokOf : Dev nD × Fin 9 → GSem nD τ sig × ℕ × Fin 3) := by
  rintro ⟨c, j⟩ ⟨c', j'⟩ h
  have h1 : kcell (c, tk j) = kcell (c', tk j') := congrArg Prod.fst h
  have h2 : td j = td j' := congrArg (fun x : GSem nD τ sig × ℕ × Fin 3 => x.2.2) h
  have h3 := kcell_injective h1
  have hc : c = c' := congrArg Prod.fst h3
  have hk : tk j = tk j' := congrArg Prod.snd h3
  have hj : j = j' := tkd_injective (Prod.ext hk h2)
  rw [hc, hj]
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The duty tokens of device c's own cells: the three of its barrier cell, one per send cell, one per receive cell. -/
def toks (c : Dev nD) : sProp 𝕄 :=
  iprop((bigSep Finset.univ fun e : Fin 3 => dutyTok ER (barCell c) 0 e)
    ∗ (bigSep Finset.univ fun d : Fin 3 => dutyTok ER (sendCell c d) 0 0)
    ∗ (bigSep Finset.univ fun d : Fin 3 => dutyTok ER (recvCell c d) 0 0))

/-- What the launch element deals device c. -/
def G (c : Dev nD) : sProp 𝕄 :=
  iprop((bigSep Finset.univ fun k : Fin 7 => roundState ER (Rd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

theorem toks_of_minted (c : Dev nD) :
    (bigSep Finset.univ fun j : Fin 9 => (dutyTok ER (kcell (c, tk j)) 0 (td j) : sProp 𝕄)) ⊢ toks c := by
  unfold toks; rw [bigSep_fin9, bigSep_fin3, bigSep_fin3, bigSep_fin3]
  iintro ⟨H0, H1, H2, H3, H4, H5, H6, H7, H8⟩
  isplitl [H0 H1 H2]
  · isplitl [H0]; · iexact H0
    isplitl [H1]; · iexact H1
    iexact H2
  isplitl [H3 H4 H5]
  · isplitl [H3]; · iexact H3
    isplitl [H4]; · iexact H4
    iexact H5
  isplitl [H6]; · iexact H6
  isplitl [H7]; · iexact H7
  iexact H8

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of_minted c
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ## The global step: every cell's invariant closed, the tokens dealt around the ring -/

/-- The send and receive semaphores are the kernel's own six; -/
theorem ownSems0_eq (c : Dev nD) : (Pipeline.ownSems0 (Ix := Unit) (Name := ℕ) (U := UU) (Lvl := ℕ) (Val := Elt F) (τ := τ) osem c : sProp 𝕄)
    = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨S0, S1, S2, R0, R1, R2⟩, HB⟩
  isplitl [HB]; · iexact HB
  isplitl [S0]; · iexact S0
  isplitl [S1]; · iexact S1
  isplitl [S2]; · iexact S2
  isplitl [R0]; · iexact R0
  isplitl [R1]; · iexact R1
  iexact R2

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 7 => iprop(∃ κ : ℕ, cellInv ER (Rd m ρ) κ (kcell (c, k))))
          ∗ (bigSep Finset.univ fun k : Fin 7 => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (Rd m ρ) (kcell (c, k)) 0)
      ⊢ (|={Set.univ}=> bigSep Finset.univ fun k : Fin 7 => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant under the names it was allocated at, and that round 0 of every cell is reached. -/
def records (K : Dev nD × Fin 7 → ℕ) : sProp 𝕄 :=
  iprop((bigSep Finset.univ fun ck : Dev nD × Fin 7 => cellInv ER (Rd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (Rd m ρ) (K ck) (kcell ck) : sProp 𝕄)) ⊢ cellInv ER (Rd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)
theorem rec_inv (K : Dev nD × Fin 7 → ℕ) (ck : Dev nD × Fin 7) : records m ρ K ⊢ cellInv ER (Rd m ρ) (K ck) (kcell ck) := by
  unfold records; iintro ⟨#HI, -⟩
  iapply (inv_at m ρ K ck); iexact HI
theorem rec_reached (K : Dev nD × Fin 7 → ℕ) (ck : Dev nD × Fin 7) : records m ρ K ⊢ reached ER (kcell ck) 0 := by
  unfold records; iintro ⟨-, #HR⟩
  iapply (reached_at (F := F) ck); iexact HR

theorem rec_inv_send (K : Dev nD × Fin 7 → ℕ) (c : Dev nD) (d : Fin 3) : records m ρ K ⊢ cellInv ER (Rd m ρ) (K (c, sIx d)) (sendCell c d) := by
  have h := rec_inv m ρ K (c, sIx d); rw [kcell_send] at h; exact h
theorem rec_inv_recv (K : Dev nD × Fin 7 → ℕ) (c : Dev nD) (d : Fin 3) : records m ρ K ⊢ cellInv ER (Rd m ρ) (K (c, rIx d)) (recvCell c d) := by
  have h := rec_inv m ρ K (c, rIx d); rw [kcell_recv] at h; exact h
theorem rec_reached_send (K : Dev nD × Fin 7 → ℕ) (c : Dev nD) (d : Fin 3) : records m ρ K ⊢ reached ER (sendCell c d) 0 := by
  have h := rec_reached m ρ K (c, sIx d); rw [kcell_send] at h; exact h
theorem rec_reached_recv (K : Dev nD × Fin 7 → ℕ) (c : Dev nD) (d : Fin 3) : records m ρ K ⊢ reached ER (recvCell c d) 0 := by
  have h := rec_reached m ρ K (c, rIx d); rw [kcell_recv] at h; exact h

theorem invs_intro (K : Dev nD × Fin 7 → ℕ) (c : Dev nD) : records m ρ K ⊢ invs m ρ K c := by
  unfold invs
  iintro #HR
  isplitr; · iapply (rec_inv m ρ K (c, 0)); iexact HR
  isplitr; · iapply (bigSep_intro_persistent (S := Finset.univ) fun (d : Fin 3) _ => rec_inv_send m ρ K c d); iexact HR
  isplitr; · iapply (bigSep_intro_persistent (S := Finset.univ) fun (d : Fin 3) _ => rec_inv_recv m ρ K c d); iexact HR
  isplitr; · iapply (bigSep_intro_persistent (S := Finset.univ) fun (e : Fin 3) _ => rec_inv m ρ K (fwd c e, 0)); iexact HR
  iapply (bigSep_intro_persistent (S := Finset.univ) fun (d : Fin 3) _ => rec_inv_recv m ρ K (fwd c d) d); iexact HR

/-- What stays with device c: the positions of its own cells, and the tokens of the duties IT pays. -/
def payToks (c : Dev nD) : sProp 𝕄 :=
  iprop((bigSep Finset.univ fun e : Fin 3 => dutyTok ER (barCell (fwd c e)) 0 e)
    ∗ (bigSep Finset.univ fun d : Fin 3 => dutyTok ER (recvCell (fwd c d) d) 0 0)
    ∗ (bigSep Finset.univ fun d : Fin 3 => dutyTok ER (sendCell c d) 0 0))
def linear (c : Dev nD) : sProp 𝕄 :=
  iprop((bigSep Finset.univ fun k : Fin 7 => atPos ER (kcell (c, k)) 0 ∅ 0) ∗ payToks c)

theorem atPos_split (c : Dev nD) :
    (bigSep Finset.univ fun k : Fin 7 => (atPos ER (kcell (c, k)) 0 ∅ 0 : sProp 𝕄))
      ⊢ iprop(atPos ER (barCell c) 0 ∅ 0 ∗ (bigSep Finset.univ fun d : Fin 3 => atPos ER (sendCell c d) 0 ∅ 0)
          ∗ (bigSep Finset.univ fun d : Fin 3 => atPos ER (recvCell c d) 0 ∅ 0)) := by
  rw [bigSep_fin7, bigSep_fin3, bigSep_fin3]
  iintro ⟨H0, H1, H2, H3, H4, H5, H6⟩
  isplitl [H0]; · iexact H0
  isplitl [H1 H2 H3]
  · isplitl [H1]; · iexact H1
    isplitl [H2]; · iexact H2
    iexact H3
  isplitl [H4]; · iexact H4
  isplitl [H5]; · iexact H5
  iexact H6

theorem ghost_intro (K : Dev nD × Fin 7 → ℕ) (c : Dev nD) : iprop(records m ρ K ∗ linear c) ⊢ G' m ρ c := by
  unfold linear payToks G' ghost
  iintro ⟨#HR, Hat, HtB, HtV, HtS⟩
  ihave Hat' := (atPos_split (F := F) c) $$ Hat
  icases Hat' with ⟨HaB, HaS, HaV⟩
  iexists K
  isplitr; · iapply (invs_intro m ρ K c); iexact HR
  isplitl [HaB]; · iexact HaB
  isplitl [HaS]; · iexact HaS
  isplitl [HaV]; · iexact HaV
  isplitr; · iapply (bigSep_intro_persistent (S := Finset.univ) fun (e : Fin 3) _ => rec_reached m ρ K (fwd c e, 0)); iexact HR
  isplitr; · iapply (bigSep_intro_persistent (S := Finset.univ) fun (d : Fin 3) _ => rec_reached_recv m ρ K (fwd c d) d); iexact HR
  isplitr; · iapply (bigSep_intro_persistent (S := Finset.univ) fun (d : Fin 3) _ => rec_reached_send m ρ K c d); iexact HR
  isplitr; · iapply (bigSep_intro_persistent (S := Finset.univ) fun (d : Fin 3) _ => rec_reached_recv m ρ K c d); iexact HR
  isplitl [HtB]; · iexact HtB
  isplitl [HtV]; · iexact HtV
  iexact HtS

/-- The tokens dealt around the ring: duty e of a barrier cell goes e + 1 positions down (to the device that signals it),
    the duty of receive cell d goes d + 1 positions down (to the device whose transfer d lands there), a send cell's stays. -/
theorem toks_around : (bigSep Finset.univ fun c : Dev nD => (toks c : sProp 𝕄)) ⊢ bigSep Finset.univ fun c : Dev nD => payToks c := by
  unfold toks payToks
  simp only [bigSep_fin3, bigSep_sep']
  rw [bigSep_univ_equiv (ringE 0) (fun c : Dev nD => (dutyTok ER (barCell c) 0 0 : sProp 𝕄)),
    bigSep_univ_equiv (ringE 1) (fun c : Dev nD => (dutyTok ER (barCell c) 0 1 : sProp 𝕄)),
    bigSep_univ_equiv (ringE 2) (fun c : Dev nD => (dutyTok ER (barCell c) 0 2 : sProp 𝕄)),
    bigSep_univ_equiv (ringE 0) (fun c : Dev nD => (dutyTok ER (recvCell c 0) 0 0 : sProp 𝕄)),
    bigSep_univ_equiv (ringE 1) (fun c : Dev nD => (dutyTok ER (recvCell c 1) 0 0 : sProp 𝕄)),
    bigSep_univ_equiv (ringE 2) (fun c : Dev nD => (dutyTok ER (recvCell c 2) 0 0 : sProp 𝕄))]
  iintro ⟨⟨B0, B1, B2⟩, ⟨S0, S1, S2⟩, V0, V1, V2⟩
  isplitl [B0 B1 B2]
  · isplitl [B0]; · iexact B0
    isplitl [B1]; · iexact B1
    iexact B2
  isplitl [V0 V1 V2]
  · isplitl [V0]; · iexact V0
    isplitl [V1]; · iexact V1
    iexact V2
  isplitl [S0]; · iexact S0
  isplitl [S1]; · iexact S1
  iexact S2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Fin 7 => iprop(∃ κ : ℕ, cellInv ER (Rd m ρ) κ (kcell (c, k))))
          ∗ (bigSep Finset.univ fun k : Fin 7 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (Rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply (Entails.of_eq (bigSep_sep' Finset.univ (fun c : Dev nD => bigSep Finset.univ fun k : Fin 7 => (atPos ER (kcell (c, k)) 0 ∅ 0 : sProp 𝕄)) payToks).symm)
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- What the others owe device c's cells, as the credit it waits with: one unit on its barrier cell from each of the three
    devices below it on the ring, a block's credit on receive cell d from the device d + 1 positions down. -/
theorem creds (c : Dev nD) :
    (Pipeline.launchCred O₀ c : sProp 𝕄)
      ⊢ iprop(cred (tallyAt (barCell c) () 3) ∗ bigSep Finset.univ fun d : Fin 3 => cred (tallyAt (recvCell c d) () N)) := by
  have hb (e : Fin 3) : (Pipeline.launchCred (fun d : Dev nD => tallyAt (barCell (fwd d e)) () 1) c : sProp 𝕄) ⊢ cred (tallyAt (barCell c) () 1) :=
    Pipeline.launchCred_tallyAt (.reg barS) (fun d => fwd d e) (fun d => bwd d e) (fun d => fwd_bwd d e) (fun d => bwd_fwd d e) () 1 c
  have hr (k : Fin 3) : (Pipeline.launchCred (fun d : Dev nD => tallyAt (recvCell (fwd d k) k) () N) c : sProp 𝕄) ⊢ cred (tallyAt (recvCell c k) () N) :=
    Pipeline.launchCred_tallyAt (.dma (recvSem k)) (fun d => fwd d k) (fun d => bwd d k) (fun d => fwd_bwd d k) (fun d => bwd_fwd d k) () N c
  have h3 : iprop(cred (tallyAt (barCell c) () 1) ∗ cred (tallyAt (barCell c) () 1) ∗ cred (tallyAt (barCell c) () 1))
      ⊢ (cred (tallyAt (barCell c) () 3) : sProp 𝕄) := by
    rw [show (tallyAt (barCell c) () 3 : CellTallies nD τ sig Unit) = tallyAt (barCell c) () 1 + (tallyAt (barCell c) () 1 + tallyAt (barCell c) () 1) from by
      rw [tallyAt_add, tallyAt_add]]
    exact (sep_mono_right (cred_add _ _).2).trans (cred_add _ _).2
  rw [show (O₀ : Dev nD → CellTallies nD τ sig Unit) = fun d => O₁ d + tallyAt (barCell (fwd d 0)) () 1 from rfl, Pipeline.launchCred_add,
    show (O₁ : Dev nD → CellTallies nD τ sig Unit) = fun d => O₂ d + tallyAt (barCell (fwd d 1)) () 1 from rfl, Pipeline.launchCred_add,
    show (O₂ : Dev nD → CellTallies nD τ sig Unit) = fun d => OR d + tallyAt (barCell (fwd d 2)) () 1 from rfl, Pipeline.launchCred_add,
    show (OR : Dev nD → CellTallies nD τ sig Unit)
      = fun d => (tallyAt (recvCell (fwd d 2) 2) () N + tallyAt (recvCell (fwd d 1) 1) () N) + tallyAt (recvCell (fwd d 0) 0) () N from rfl,
    Pipeline.launchCred_add, Pipeline.launchCred_add, bigSep_fin3]
  iintro ⟨⟨⟨⟨⟨R2, R1⟩, R0⟩, B2⟩, B1⟩, B0⟩
  ihave B0' := (hb 0) $$ B0
  ihave B1' := (hb 1) $$ B1
  ihave B2' := (hb 2) $$ B2
  ihave R0' := (hr 0) $$ R0
  ihave R1' := (hr 1) $$ R1
  ihave R2' := (hr 2) $$ R2
  isplitl [B0' B1' B2']
  · iapply h3
    isplitl [B0']; · iexact B0'
    isplitl [B1']; · iexact B1'
    iexact B2'
  isplitl [R0']; · iexact R0'
  isplitl [R1']; · iexact R1'
  iexact R2'

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁
  rw [bigSep_fin3, bigSep_fin3]
  iintro ⟨Hr, ⟨S0, S1, S2⟩, V0, V1, V2⟩
  isplitr; · iempintro
  isplitr [Hr]
  · isplitl [S0]; · iexact S0
    isplitl [S1]; · iexact S1
    isplitl [S2]; · iexact S2
    isplitl [V0]; · iexact V0
    isplitl [V1]; · iexact V1
    iexact V2
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters, given each
    device's body: every weakly fair execution of @main terminates, nothing faulting, and every final state has each
    device's windowed arrays at the contents the proof data names. -/
theorem run_main (hbody : ∀ c, BodyObligation (dats (F := F) m ρ 0 c) (defs₀ (F := F)) 𝒱₀ () Set.univ) :
    θ_run defs (onTc (τ := τ) (main (F := F))) (st0 m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.A2A.run_main' depends on axioms: [propext, Classical.choice, Quot.sound] -/
#guard_msgs in #print axioms run_main

/-- The array of x after the run holds what it held. -/
theorem finalA_x (c : Dev nD) : finalA m ρ c (0 : Fin 2) = (st0 m ρ).mem (win0_0.arr.view.loc (c : Thread nD τ)) :=
  (dats (F := F) m ρ 0 c).arrAt_in (0 : Fin 2) rfl _

end Cert.KernelIdeal.A2A

end
-- ==== Proof.Regions.lean ====
import proofs.«900653_g7700000000000654_dist_a2a_v7x_xyz2x4x4_y_m1024_n512_bf16_1_alg».proof.Proof.Data
import Idealize.ShloMosaic.Lib.Pipeline.Value

/-!
# Row blocks of the result buffer and column blocks of the bf16 copy

The result buffer (4096 x 512) is the disjoint union of four row blocks of 1024 rows, one per position on y:
a device's own and the three it lends. The bf16 copy (1024 x 2048) is the disjoint union of four column
blocks of 512 columns: the one the device reads itself and the three it sends. A write, through a row block,
of what a column block reads puts entry (r, l) of the column block at row r, column l of the row block.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The column block of the bf16 copy that a device reads itself. -/
abbrev bOwn (c : Dev nD) : Memref sig .tc .vmem S1024x512 .bf16 :=
  bM.slice (Rect.unit (s := S1024x2048) (k0_off1 c) S1024x512.size (k0_off1_inb c)) (fun _ => rfl)

/-! ## Membership -/

theorem mem_rowSet (p : Dev nD) (i : (cc0_stg1_0 : Ref sig .tc).ty.Idx) :
    i ∈ (oSl p).view.set ↔ 1024 * yOf p ≤ (i 0).val ∧ (i 0).val < 1024 * yOf p + 1024 := by
  rw [show (oSl p).view.set = _ from View.set_slice_whole _ _, Rect.mem_set_unit, off3_eq]
  refine Iff.trans Fin.forall_fin_two ?_
  show Iff ((1024 * yOf p ≤ (i 0).val ∧ (i 0).val < 1024 * yOf p + 1024) ∧ (0 ≤ (i 1).val ∧ (i 1).val < 0 + 512)) _
  have h1 : (i 1).val < 512 := (i 1).isLt
  omega

theorem mem_colSet (c : Dev nD) (d : Fin 3) (i : (cc0_scratch0 : Ref sig .tc).ty.Idx) :
    i ∈ (bSl c d).view.set ↔ 512 * yOf (fwd c d) ≤ (i 1).val ∧ (i 1).val < 512 * yOf (fwd c d) + 512 := by
  rw [show (bSl c d).view.set = _ from View.set_slice_whole _ _, Rect.mem_set_unit, off4_eq]
  refine Iff.trans Fin.forall_fin_two ?_
  show Iff ((0 ≤ (i 0).val ∧ (i 0).val < 0 + 1024) ∧ (512 * yOf (fwd c d) ≤ (i 1).val ∧ (i 1).val < 512 * yOf (fwd c d) + 512)) _
  have h0 : (i 0).val < 1024 := (i 0).isLt
  omega

theorem mem_colOwn (c : Dev nD) (i : (cc0_scratch0 : Ref sig .tc).ty.Idx) :
    i ∈ (bOwn c).view.set ↔ 512 * yOf c ≤ (i 1).val ∧ (i 1).val < 512 * yOf c + 512 := by
  rw [show (bOwn c).view.set = _ from View.set_slice_whole _ _, Rect.mem_set_unit, off1_eq]
  refine Iff.trans Fin.forall_fin_two ?_
  show Iff ((0 ≤ (i 0).val ∧ (i 0).val < 0 + 1024) ∧ (512 * yOf c ≤ (i 1).val ∧ (i 1).val < 512 * yOf c + 512)) _
  have h0 : (i 0).val < 1024 := (i 0).isLt
  omega

/-! ## The two partitions -/

/-- The four row blocks of device c's result buffer: its own, and the one lent to each fwd c e. -/
def rowK (c : Dev nD) : Option (Fin 3) → Finset (cc0_stg1_0 : Ref sig .tc).ty.Idx
  | none => (oSl c).view.set
  | some e => (oSl (fwd c e)).view.set
/-- The four column blocks of its bf16 copy: the one it reads, and the one sent to each fwd c d. -/
def colK (c : Dev nD) : Option (Fin 3) → Finset (cc0_scratch0 : Ref sig .tc).ty.Idx
  | none => (bOwn c).view.set
  | some d => (bSl c d).view.set

/-- The y position a block is named by. -/
def yK (c : Dev nD) : Option (Fin 3) → ℕ
  | none => yOf c
  | some e => yOf (fwd c e)

theorem yK_inj (c : Dev nD) : ∀ t t' : Option (Fin 3), yK c t = yK c t' → t = t' := by revert c; decide
theorem yK_cover (c : Dev nD) (k : Fin 4) : ∃ t, yK c t = k.val := by revert c k; decide

theorem mem_rowK (c : Dev nD) (t : Option (Fin 3)) (i : (cc0_stg1_0 : Ref sig .tc).ty.Idx) :
    i ∈ rowK c t ↔ 1024 * yK c t ≤ (i 0).val ∧ (i 0).val < 1024 * yK c t + 1024 := by
  cases t <;> exact mem_rowSet _ _
theorem mem_colK (c : Dev nD) (t : Option (Fin 3)) (i : (cc0_scratch0 : Ref sig .tc).ty.Idx) :
    i ∈ colK c t ↔ 512 * yK c t ≤ (i 1).val ∧ (i 1).val < 512 * yK c t + 512 := by
  cases t
  · exact mem_colOwn _ _
  · exact mem_colSet _ _ _

theorem rowK_disj (c : Dev nD) : ∀ t ∈ (Finset.univ : Finset (Option (Fin 3))), ∀ t' ∈ (Finset.univ : Finset (Option (Fin 3))),
    t ≠ t' → Disjoint (rowK c t) (rowK c t') := fun t _ t' _ hne => Finset.disjoint_left.mpr fun i hi hi' => by
  rw [mem_rowK] at hi hi'
  exact hne (yK_inj c t t' (by omega))
theorem colK_disj (c : Dev nD) : ∀ t ∈ (Finset.univ : Finset (Option (Fin 3))), ∀ t' ∈ (Finset.univ : Finset (Option (Fin 3))),
    t ≠ t' → Disjoint (colK c t) (colK c t') := fun t _ t' _ hne => Finset.disjoint_left.mpr fun i hi hi' => by
  rw [mem_colK] at hi hi'
  exact hne (yK_inj c t t' (by omega))

theorem rowK_cover (c : Dev nD) : (Finset.univ : Finset (Option (Fin 3))).biUnion (rowK c) = Finset.univ := by
  ext i
  simp only [Finset.mem_biUnion, Finset.mem_univ, true_and, iff_true]
  have h0 : (i 0).val < 4096 := (i 0).isLt
  obtain ⟨t, ht⟩ := yK_cover c ⟨(i 0).val / 1024, by omega⟩
  exact ⟨t, (mem_rowK c t i).mpr (by rw [ht]; dsimp only; omega)⟩
theorem colK_cover (c : Dev nD) : (Finset.univ : Finset (Option (Fin 3))).biUnion (colK c) = Finset.univ := by
  ext i
  simp only [Finset.mem_biUnion, Finset.mem_univ, true_and, iff_true]
  have h1 : (i 1).val < 2048 := (i 1).isLt
  obtain ⟨t, ht⟩ := yK_cover c ⟨(i 1).val / 512, by omega⟩
  exact ⟨t, (mem_colK c t i).mpr (by rw [ht]; dsimp only; omega)⟩

theorem bigSep_opt3 (Φ : Option (Fin 3) → sProp 𝕄) : bigSep Finset.univ Φ = iprop(Φ none ∗ Φ (some 0) ∗ Φ (some 1) ∗ Φ (some 2)) :=
  bigSep_univ_eq_bigSepL [none, some 0, some 1, some 2] (by decide) (by decide) Φ

/-- A buffer of the result's shape held whole is its four row blocks held apart, and back. -/
theorem out_split (c : Dev nD) (f : Buf (Elt F) ((c : Thread nD τ).loc cc0_stg1_0)) :
    (((c : Thread nD τ).loc cc0_stg1_0) ↦{fullShare} f : sProp 𝕄)
      = iprop((((c : Thread nD τ).loc cc0_stg1_0) ↦[rowK c none]{fullShare} f) ∗ (((c : Thread nD τ).loc cc0_stg1_0) ↦[rowK c (some 0)]{fullShare} f)
          ∗ (((c : Thread nD τ).loc cc0_stg1_0) ↦[rowK c (some 1)]{fullShare} f) ∗ (((c : Thread nD τ).loc cc0_stg1_0) ↦[rowK c (some 2)]{fullShare} f)) := by
  rw [← rowK_cover c, pointsTo_biUnion _ _ (rowK_disj c), bigSep_opt3]
theorem xb_split (c : Dev nD) (f : Buf (Elt F) ((c : Thread nD τ).loc cc0_scratch0)) :
    (((c : Thread nD τ).loc cc0_scratch0) ↦{fullShare} f : sProp 𝕄)
      = iprop((((c : Thread nD τ).loc cc0_scratch0) ↦[colK c none]{fullShare} f) ∗ (((c : Thread nD τ).loc cc0_scratch0) ↦[colK c (some 0)]{fullShare} f)
          ∗ (((c : Thread nD τ).loc cc0_scratch0) ↦[colK c (some 1)]{fullShare} f) ∗ (((c : Thread nD τ).loc cc0_scratch0) ↦[colK c (some 2)]{fullShare} f)) := by
  rw [← colK_cover c, pointsTo_biUnion _ _ (colK_disj c), bigSep_opt3]

end Cert.KernelIdeal.A2A

end
-- ==== Proof.Landing.lean ====
import proofs.«900653_g7700000000000654_dist_a2a_v7x_xyz2x4x4_y_m1024_n512_bf16_1_alg».proof.Proof.Regions

/-!
# What a landing holds

A write, through the row block of the result that y names, of what a column block of the bf16 copy reads puts
entry (r, l) of the column block at row r, column l of the row block: exactly what the result holds there in the end.
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem atY_self (c : Dev nD) : atY c (yOf c) = c := by revert c; decide
theorem atY_fwd (c : Dev nD) (d : Fin 3) : atY (fwd c d) (yOf c) = c := by revert c d; decide

/-- The local block: the rectangle the body loads from the bf16 copy and the one it stores to in the result. -/
abbrev r1 (c : Dev nD) : Rect S1024x2048 := Rect.unit (s := S1024x2048) (k0_off1 c) S1024x512.size (k0_off1_inb c)
abbrev r2 (c : Dev nD) : Rect S4096x512 := Rect.unit (s := S4096x512) (k0_off2 c) S1024x512.size (k0_off2_inb c)

/-- The bf16 copy's entry that lands at an index of a row block. -/
theorem xbv_congr (c c' : Dev nD) (hc : c' = c) (j j' : (cc0_scratch0 : Ref sig .tc).ty.Idx)
    (h0 : (j' 0).val = (j 0).val) (h1 : (j' 1).val = (j 1).val) : xbv m ρ c j = xbv m ρ c' j' := by
  subst hc
  have : j' = j := funext fun a => Fin.ext (by
    have ha : a = 0 ∨ a = 1 := by revert a; decide
    rcases ha with rfl | rfl
    · exact h0
    · exact h1)
  rw [this]

/-- Transfer d of device c, landed on fwd c d: the row block c's y names holds there what fwd c d's result holds in the end. -/
theorem landed_eq (c : Dev nD) (d : Fin 3) (fd : (cc0_stg1_0 : Ref sig .tc).ty.Contents (Elt F)) :
    ∀ i ∈ (oSl c).view.set,
      (oSl c).view.write (Elt F) fd ((bSl c d).view.read (Elt F) (xbv m ρ c)) Finset.univ i = outAt m ρ (fwd c d) i := by
  intro i hi
  obtain ⟨x, rfl⟩ := View.exists_emb_of_mem_set _ hi
  rw [View.write_emb_of_mem _ _ (Finset.mem_univ x), View.read_apply]
  unfold outAt
  have hx0 : (x 0).val < 1024 := (x 0).isLt
  have e0 : ((oSl c).view.emb x 0).val = 1024 * yOf c + (x 0).val := by
    show k0_off3 c 0 + 1 * (x 0).val = _
    rw [congrFun (off3_eq c) 0, Nat.one_mul]; rfl
  have e1 : ((oSl c).view.emb x 1).val = (x 1).val := by
    show k0_off3 c 1 + 1 * (x 1).val = _
    rw [congrFun (off3_eq c) 1, Nat.one_mul]; exact Nat.zero_add _
  have b0 : ((bSl c d).view.emb x 0).val = (x 0).val := by
    show k0_off4 c (BitVec.ofNat 32 (1 + d.val)) 0 + 1 * (x 0).val = _
    rw [congrFun (off4_eq c d) 0, Nat.one_mul]; exact Nat.zero_add _
  have b1 : ((bSl c d).view.emb x 1).val = 512 * yOf (fwd c d) + (x 1).val := by
    show k0_off4 c (BitVec.ofNat 32 (1 + d.val)) 1 + 1 * (x 1).val = _
    rw [congrFun (off4_eq c d) 1, Nat.one_mul]; rfl
  rw [cast_eq, cast_eq]
  refine xbv_congr m ρ c _ (by rw [e0, show (1024 * yOf c + (x 0).val) / 1024 = yOf c from by omega]; exact atY_fwd c d) _ _ ?_ ?_
  · show ((oSl c).view.emb x 0).val % 1024 = _
    rw [e0, b0]; omega
  · show 512 * yOf (fwd c d) + ((oSl c).view.emb x 1).val = _
    rw [e1, b1]

/-- The block a device stores itself: the row block its own y names holds what its result holds there in the end. -/
theorem local_eq (c : Dev nD) (g : (cc0_stg1_0 : Ref sig .tc).ty.Contents (Elt F)) :
    ∀ i ∈ rowK c none,
      ((oM.access (r2 c) : View sig .tc _ _ _).write (Elt F) g ((bM.access (r1 c) : View sig .tc _ _ _).read (Elt F) (xbv m ρ c)) Finset.univ) i
        = outAt m ρ c i := by
  intro i hi
  have hi' : i ∈ (oM.access (r2 c) : View sig .tc _ _ _).set := by
    rw [show (oM.access (r2 c) : View sig .tc _ _ _).set = _ from View.set_slice_whole _ _, Rect.mem_set_unit, off2_eq]
    have h := (mem_rowSet c i).mp hi
    have h1 : (i 1).val < 512 := (i 1).isLt
    refine Fin.forall_fin_two.mpr ⟨?_, ?_⟩
    · show 1024 * yOf c ≤ (i 0).val ∧ (i 0).val < 1024 * yOf c + 1024
      exact h
    · show 0 ≤ (i 1).val ∧ (i 1).val < 0 + 512
      omega
  obtain ⟨x, rfl⟩ := View.exists_emb_of_mem_set _ hi'
  rw [View.write_emb_of_mem _ _ (Finset.mem_univ x), View.read_apply]
  unfold outAt
  have hx0 : (x 0).val < 1024 := (x 0).isLt
  have e0 : ((oM.access (r2 c) : View sig .tc _ _ _).emb x 0).val = 1024 * yOf c + (x 0).val := by
    show k0_off2 c 0 + 1 * (x 0).val = _
    rw [congrFun (off2_eq c) 0, Nat.one_mul]; rfl
  have e1 : ((oM.access (r2 c) : View sig .tc _ _ _).emb x 1).val = (x 1).val := by
    show k0_off2 c 1 + 1 * (x 1).val = _
    rw [congrFun (off2_eq c) 1, Nat.one_mul]; exact Nat.zero_add _
  have b0 : ((bM.access (r1 c) : View sig .tc _ _ _).emb x 0).val = (x 0).val := by
    show k0_off1 c 0 + 1 * (x 0).val = _
    rw [congrFun (off1_eq c) 0, Nat.one_mul]; exact Nat.zero_add _
  have b1 : ((bM.access (r1 c) : View sig .tc _ _ _).emb x 1).val = 512 * yOf c + (x 1).val := by
    show k0_off1 c 1 + 1 * (x 1).val = _
    rw [congrFun (off1_eq c) 1, Nat.one_mul]; rfl
  rw [cast_eq, cast_eq]
  refine xbv_congr m ρ c _ (by rw [e0, show (1024 * yOf c + (x 0).val) / 1024 = yOf c from by omega]; exact atY_self c) _ _ ?_ ?_
  · show ((oM.access (r2 c) : View sig .tc _ _ _).emb x 0).val % 1024 = _
    rw [e0, b0]; omega
  · show 512 * yOf c + ((oM.access (r2 c) : View sig .tc _ _ _).emb x 1).val = _
    rw [e1, b1]

/-- The rectangle the body stores its own block through covers exactly the row block its y names. -/
theorem own_set (c : Dev nD) : (oM.access (r2 c) : View sig .tc _ _ _).set = rowK c none := by
  ext i
  rw [show (oM.access (r2 c) : View sig .tc _ _ _).set = _ from View.set_slice_whole _ _, Rect.mem_set_unit, off2_eq]
  refine Iff.trans Fin.forall_fin_two ?_
  refine Iff.trans ?_ (mem_rowSet c i).symm
  show Iff ((1024 * yOf c ≤ (i 0).val ∧ (i 0).val < 1024 * yOf c + 1024) ∧ (0 ≤ (i 1).val ∧ (i 1).val < 0 + 512)) _
  have h1 : (i 1).val < 512 := (i 1).isLt
  omega

end Cert.KernelIdeal.A2A

end
-- ==== Proof.Body.lean ====
import proofs.«900653_g7700000000000654_dist_a2a_v7x_xyz2x4x4_y_m1024_n512_bf16_1_alg».proof.Proof.Landing

/-!
# One device's body: the handshake, the local block, the three transfers and their waits

From the ghost state the launch deals it, a device lends its three neighbours the row blocks of its result
buffer they fill (one with each barrier signal), waits for the three lenders of its own transfers' landing
blocks, stores its own block, sends the three column blocks of its bf16 copy, and takes back, filled, the
three row blocks it lent (its receive waits) and the three column blocks it sent (its send waits).
-/

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev rW : Rect S1024x2048 := Rect.unit (s := S1024x2048) ![0, 0] S1024x2048.size inb_S1024x2048_S1024x2048_0_0

theorem hz : (![0, 0] : Fin 2 → Nat) = fun _ => 0 := funext fun a => by fin_cases a <;> rfl
theorem read_x (f : (cc0_stg0_0 : Ref sig .tc).ty.Contents (Elt F)) : (xM : Memref sig .tc .vmem S1024x2048 .f32).view.readAt (Elt F) rW.toLoadRect f = f :=
  Memref.readAt_unit_zero (Elt F) cc0_stg0_0 hz _ f
theorem write_b (f w : (cc0_scratch0 : Ref sig .tc).ty.Contents (Elt F)) :
    ((bM : Memref sig .tc .vmem S1024x2048 .bf16).access rW : View sig .tc _ _ _).write (Elt F) f w Finset.univ = w :=
  Memref.write_access_unit_zero_univ (Elt F) cc0_scratch0 hz _ f w

theorem bwd0 (c : Dev nD) : bwd c 0 = fwd c 2 := by revert c; decide
theorem bwd1 (c : Dev nD) : bwd c 1 = fwd c 1 := by revert c; decide
theorem bwd2 (c : Dev nD) : bwd c 2 = fwd c 0 := by revert c; decide

/-- The addressed transfer d of device c, to n = fwd c d (substituted, not rewritten): the sent column block goes to the
    send cell, the lent row block, rewritten, to the receiver's receive cell d. -/
theorem wp_send_blk (K : Dev nD × Fin 7 → ℕ) (c n : Dev nD) (d : Fin 3) (hn : n = fwd c d)
    {hsc : (oSl c : Memref sig (Dev.tc n : Thread nD τ).2.kind .vmem S1024x512 .bf16).view.ref.isScScratch = false}
    {hsrc : (bSl c d).view.WordExact} {hdst : (oSl c).view.WordExact}
    {hsem : DmaTarget.Typed .vmem (.dma (recvSem d)) (.remote (Dev.tc n : Thread nD τ) (oSl c) (.dma (sendSem d)) hsc)}
    {α : Type} {Q : α → sProp 𝕄} {k : PUnit → Prog (TpuEff nD τ sig (Elt F) Λ₀ .tc) α}
    (fn : Buf (Elt F) ((oSl c).view.loc (fwd c d : Thread nD τ))) (W : Waits sig Unit) (O₀ O : CellTallies nD τ sig Unit)
    (hO : O₀ = O + tallyAt (recvCell (fwd c d) d) () N) :
    iprop(cellInv ER (Rd m ρ) (K (c, sIx d)) (sendCell c d) ∗ cellInv ER (Rd m ρ) (K (fwd c d, rIx d)) (recvCell (fwd c d) d)
        ∗ ((bSl c d).view.loc (c : Thread nD τ) ↦[(bSl c d).view.set]{fullShare} xbv m ρ c)
        ∗ ((oSl c).view.loc (fwd c d : Thread nD τ) ↦[(oSl c).view.set]{fullShare} fn)
        ∗ owes (c : Thread nD τ) O₀ W
        ∗ dutyTok ER (sendCell c d) 0 0 ∗ reached ER (sendCell c d) 0
        ∗ dutyTok ER (recvCell (fwd c d) d) 0 0 ∗ reached ER (recvCell (fwd c d) d) 0)
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (bSl c d) (.remote (Dev.tc n : Thread nD τ) (oSl c) (.dma (sendSem d)) hsc) (.dma (recvSem d)) hsrc hdst hsem) k) Q) := by
  subst hn
  exact Rounds.wp_send_pointsTo 𝒱₀ ER (Rd m ρ) (c : Thread nD τ) none (κ₁ := K (c, sIx d)) (κ₂ := K (fwd c d, rIx d))
    (r₁ := 0) (r₂ := 0) (d₁ := 0) (d₂ := 0) (fd := fn)
    (by rw [duties_send]; exact Finset.mem_singleton_self _) (by rw [duties_recv]; exact Finset.mem_singleton_self _)
    () () N rfl (amount_send m ρ c d 0) (amount_recv m ρ (fwd c d) d 0) O hO (W := W)
    (by rw [payload_send]; exact BI.Entails.refl _)
    (by rw [payload_recv]; unfold recvPay; rw [bwd_fwd]; exact Entails.of_eq (pointsTo_congr (landed_eq m ρ c d fn)))

set_option maxHeartbeats 3200000 in
/-- The body, one rule per effect in program order. -/
theorem sound_body (c : Dev nD) (Kt : PUnit → sProp 𝕄) :
    iprop(bodyPre m ρ c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]; unfold cc0_body_skel
  simp only [k0_part7_eq_skeleton]; unfold k0_part7_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre Φ₀ start ghost invs
  simp only [bigSep_fin3]
  iintro ⟨⟨⟨⟨⟨%K, ⟨#HIbar, ⟨#HIs0, #HIs1, #HIs2⟩, ⟨#HIr0, #HIr1, #HIr2⟩, ⟨#HIbF0, #HIbF1, #HIbF2⟩, ⟨#HIrF0, #HIrF1, #HIrF2⟩⟩,
      HatB, ⟨HatS0, HatS1, HatS2⟩, ⟨HatR0, HatR1, HatR2⟩, ⟨#HrBF0, #HrBF1, #HrBF2⟩, ⟨#HrRF0, #HrRF1, #HrRF2⟩, ⟨#HrS0, #HrS1, #HrS2⟩, ⟨#HrR0, #HrR1, #HrR2⟩,
      ⟨HtB0, HtB1, HtB2⟩, ⟨HtR0, HtR1, HtR2⟩, ⟨HtS0, HtS1, HtS2⟩⟩, HcB, ⟨HcR0, HcR1, HcR2⟩, #Hlev⟩, ⟨%fb, Hb⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  simp only [dev1_eq c, dev2_eq c, dev3_eq c]
  -- the bf16 copy of x, into the scratch
  iapply (wp_load 𝒱₀ (c : Thread nD τ) none Set.univ (m := xM) (Finset.subset_univ _)) $$ Hx; iintro Hx
  rw [read_x]
  iapply (wp_load 𝒱₀ (c : Thread nD τ) none Set.univ (m := bM) (Finset.subset_univ _)) $$ Hb; iintro Hb
  iapply (wp_store 𝒱₀ (c : Thread nD τ) none Set.univ (m := bM) (r := rW) (Mk := Finset.univ) (Finset.subset_univ _)) $$ Hb; iintro Hb
  rw [write_b]
  -- the result buffer, cut into its four row blocks: three to lend
  ihave Ho4 := (Entails.of_eq (out_split c g1)) $$ Hout
  icases Ho4 with ⟨Hown, Hl0, Hl1, Hl2⟩
  -- signal 0, to fwd c 0: the row block its y names goes with it
  iapply (Rounds.wp_signal 𝒱₀ ER (Rd m ρ) (c : Thread nD τ) none (dst := (fwd c 0 : Thread nD τ)) (κ := K (fwd c 0, 0))
      (d := 0) (by rw [duties_bar]; exact Finset.mem_univ _) ((amount_bar m ρ (fwd c 0) 0).trans (by decide)) () (O₁ c) rfl)
    $$ [HO HtB0 Hl0]
  · isplitr; · iexact HIbF0
    isplitl [HO]; · iexact HO
    isplitl [HtB0]; · iexact HtB0
    isplitl [Hl0]
    · rw [payload_bar]; unfold barPay; rw [bwd_fwd]
      isplitl [Hl0]; · iexists g1; iexact Hl0
      iexact HrR2
    · iexact HrBF0
  iintro HO
  iapply (Rounds.wp_signal 𝒱₀ ER (Rd m ρ) (c : Thread nD τ) none (dst := (fwd c 1 : Thread nD τ)) (κ := K (fwd c 1, 0))
      (d := 1) (by rw [duties_bar]; exact Finset.mem_univ _) ((amount_bar m ρ (fwd c 1) 1).trans (by decide)) () (O₂ c) rfl)
    $$ [HO HtB1 Hl1]
  · isplitr; · iexact HIbF1
    isplitl [HO]; · iexact HO
    isplitl [HtB1]; · iexact HtB1
    isplitl [Hl1]
    · rw [payload_bar]; unfold barPay; rw [bwd_fwd]
      isplitl [Hl1]; · iexists g1; iexact Hl1
      iexact HrR1
    · iexact HrBF1
  iintro HO
  iapply (Rounds.wp_signal 𝒱₀ ER (Rd m ρ) (c : Thread nD τ) none (dst := (fwd c 2 : Thread nD τ)) (κ := K (fwd c 2, 0))
      (d := 2) (by rw [duties_bar]; exact Finset.mem_univ _) ((amount_bar m ρ (fwd c 2) 2).trans (by decide)) () (OR c) rfl)
    $$ [HO HtB2 Hl2]
  · isplitr; · iexact HIbF2
    isplitl [HO]; · iexact HO
    isplitl [HtB2]; · iexact HtB2
    isplitl [Hl2]
    · rw [payload_bar]; unfold barPay; rw [bwd_fwd]
      isplitl [Hl2]; · iexists g1; iexact Hl2
      iexact HrR0
    · iexact HrBF2
  iintro HO
  -- the wait for 3 on its own barrier, owing receive credit only: the three landing blocks come with it
  iapply (Rounds.wp_wait_rest_token 𝒱₀ ER (Rd m ρ) (c : Thread nD τ) none (κ := K (c, 0))
      (wpE_semWait_eq 𝒱₀ (c : Thread nD τ) none Set.univ) (Set.mem_univ _) () (O := OR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  unfold barPay
  rw [bwd0, bwd1, bwd2]
  icases Hp with ⟨⟨⟨%fn2, Hn2⟩, #HrN2⟩, ⟨⟨%fn1, Hn1⟩, #HrN1⟩, ⟨%fn0, Hn0⟩, #HrN0⟩
  -- its own block: column block y of the copy into row block y of the result
  rw [show k0_pay1 (xstg m ρ c) = xbv m ρ c from rfl]
  iapply (wp_load_rect 𝒱₀ (c : Thread nD τ) none Set.univ (m := bM) (r := r1 c) (Finset.subset_univ _)) $$ Hb; iintro Hb
  iapply (wp_load_rect 𝒱₀ (c : Thread nD τ) none Set.univ (m := oM) (r := r2 c) (by rw [own_set])) $$ Hown; iintro Hown
  iapply (wp_store 𝒱₀ (c : Thread nD τ) none Set.univ (m := oM) (r := r2 c) (Mk := Finset.univ) (by rw [View.setOn_univ, own_set])) $$ Hown; iintro Hown
  -- the copy cut into its four column blocks: three to send, each into the row block lent for it
  ihave Hb4 := (Entails.of_eq (xb_split c (xbv m ρ c))) $$ Hb
  icases Hb4 with ⟨Hbown, Hb0, Hb1, Hb2⟩
  unfold OR
  iapply (wp_send_blk m ρ K c _ 0 (dev4_eq c) fn0 _ _ _ rfl) $$ [Hb0 Hn0 HO HtS0 HtR0]
  · isplitr; · iexact HIs0
    isplitr; · iexact HIrF0
    isplitl [Hb0]; · iexact Hb0
    isplitl [Hn0]; · iexact Hn0
    isplitl [HO]; · iexact HO
    isplitl [HtS0]; · iexact HtS0
    isplitr; · iexact HrS0
    isplitl [HtR0]; · iexact HtR0
    iexact HrRF0
  iintro ⟨HcS0, HO⟩
  iapply (wp_send_blk m ρ K c _ 1 (dev5_eq c) fn1 _ _ _ rfl) $$ [Hb1 Hn1 HO HtS1 HtR1]
  · isplitr; · iexact HIs1
    isplitr; · iexact HIrF1
    isplitl [Hb1]; · iexact Hb1
    isplitl [Hn1]; · iexact Hn1
    isplitl [HO]; · iexact HO
    isplitl [HtS1]; · iexact HtS1
    isplitr; · iexact HrS1
    isplitl [HtR1]; · iexact HtR1
    iexact HrRF1
  iintro ⟨HcS1, HO⟩
  iapply (wp_send_blk m ρ K c _ 2 (dev6_eq c) fn2 _ _ _ (zero_add _).symm) $$ [Hb2 Hn2 HO HtS2 HtR2]
  · isplitr; · iexact HIs2
    isplitr; · iexact HIrF2
    isplitl [Hb2]; · iexact Hb2
    isplitl [Hn2]; · iexact Hn2
    isplitl [HO]; · iexact HO
    isplitl [HtS2]; · iexact HtS2
    isplitr; · iexact HrS2
    isplitl [HtR2]; · iexact HtR2
    iexact HrRF2
  iintro ⟨HcS2, HO⟩
  -- the three receive waits: the lent row blocks come back holding their final contents
  iapply (Rounds.wp_wait_rest_token 𝒱₀ ER (Rd m ρ) (c : Thread nD τ) none (κ := K (c, rIx 0)) (sm := .dma (recvSem 0))
      (wpE_waitDma2_eq 𝒱₀ (c : Thread nD τ) none Set.univ) (Set.mem_univ _) () (O := 0) (R := 0) (m := 0) (T := ∅)
      (by rw [Nat.zero_add]; exact (expect_recv m ρ c 0).symm)) $$ [HcR0 HO HatR0]
  · isplitr; · iexact HIr0
    isplitl [HcR0]; · iexact HcR0
    isplitl [HO]; · iexact HO
    isplitr; · rw [MayWait_zero]; iempintro
    iexact HatR0
  iintro ⟨HO, HatR0, -, Hpay⟩
  ihave Hg0 := (Entails.of_eq (rest_recv m ρ c 0)) $$ Hpay
  iapply (Rounds.wp_wait_rest_token 𝒱₀ ER (Rd m ρ) (c : Thread nD τ) none (κ := K (c, rIx 1)) (sm := .dma (recvSem 1))
      (wpE_waitDma2_eq 𝒱₀ (c : Thread nD τ) none Set.univ) (Set.mem_univ _) () (O := 0) (R := 0) (m := 0) (T := ∅)
      (by rw [Nat.zero_add]; exact (expect_recv m ρ c 1).symm)) $$ [HcR1 HO HatR1]
  · isplitr; · iexact HIr1
    isplitl [HcR1]; · iexact HcR1
    isplitl [HO]; · iexact HO
    isplitr; · rw [MayWait_zero]; iempintro
    iexact HatR1
  iintro ⟨HO, HatR1, -, Hpay⟩
  ihave Hg1 := (Entails.of_eq (rest_recv m ρ c 1)) $$ Hpay
  iapply (Rounds.wp_wait_rest_token 𝒱₀ ER (Rd m ρ) (c : Thread nD τ) none (κ := K (c, rIx 2)) (sm := .dma (recvSem 2))
      (wpE_waitDma2_eq 𝒱₀ (c : Thread nD τ) none Set.univ) (Set.mem_univ _) () (O := 0) (R := 0) (m := 0) (T := ∅)
      (by rw [Nat.zero_add]; exact (expect_recv m ρ c 2).symm)) $$ [HcR2 HO HatR2]
  · isplitr; · iexact HIr2
    isplitl [HcR2]; · iexact HcR2
    isplitl [HO]; · iexact HO
    isplitr; · rw [MayWait_zero]; iempintro
    iexact HatR2
  iintro ⟨HO, HatR2, -, Hpay⟩
  ihave Hg2 := (Entails.of_eq (rest_recv m ρ c 2)) $$ Hpay
  -- the three send waits: the sent column blocks come back
  iapply (Rounds.wp_wait_rest_token 𝒱₀ ER (Rd m ρ) (c : Thread nD τ) none (κ := K (c, sIx 0)) (sm := .dma (sendSem 0))
      (wpE_waitDma2_eq 𝒱₀ (c : Thread nD τ) none Set.univ) (Set.mem_univ _) () (O := 0) (R := 0) (m := 0) (T := ∅)
      (by rw [Nat.zero_add]; exact (expect_send m ρ c 0).symm)) $$ [HcS0 HO HatS0]
  · isplitr; · iexact HIs0
    isplitl [HcS0]; · iexact HcS0
    isplitl [HO]; · iexact HO
    isplitr; · rw [MayWait_zero]; iempintro
    iexact HatS0
  iintro ⟨HO, HatS0, -, Hpay⟩
  ihave Hs0 := (Entails.of_eq (rest_send m ρ c 0)) $$ Hpay
  iapply (Rounds.wp_wait_rest_token 𝒱₀ ER (Rd m ρ) (c : Thread nD τ) none (κ := K (c, sIx 1)) (sm := .dma (sendSem 1))
      (wpE_waitDma2_eq 𝒱₀ (c : Thread nD τ) none Set.univ) (Set.mem_univ _) () (O := 0) (R := 0) (m := 0) (T := ∅)
      (by rw [Nat.zero_add]; exact (expect_send m ρ c 1).symm)) $$ [HcS1 HO HatS1]
  · isplitr; · iexact HIs1
    isplitl [HcS1]; · iexact HcS1
    isplitl [HO]; · iexact HO
    isplitr; · rw [MayWait_zero]; iempintro
    iexact HatS1
  iintro ⟨HO, HatS1, -, Hpay⟩
  ihave Hs1 := (Entails.of_eq (rest_send m ρ c 1)) $$ Hpay
  iapply (Rounds.wp_wait_rest_token 𝒱₀ ER (Rd m ρ) (c : Thread nD τ) none (κ := K (c, sIx 2)) (sm := .dma (sendSem 2))
      (wpE_waitDma2_eq 𝒱₀ (c : Thread nD τ) none Set.univ) (Set.mem_univ _) () (O := 0) (R := 0) (m := 0) (T := ∅)
      (by rw [Nat.zero_add]; exact (expect_send m ρ c 2).symm)) $$ [HcS2 HO HatS2]
  · isplitr; · iexact HIs2
    isplitl [HcS2]; · iexact HcS2
    isplitl [HO]; · iexact HO
    isplitr; · rw [MayWait_zero]; iempintro
    iexact HatS2
  iintro ⟨HO, HatS2, -, Hpay⟩
  ihave Hs2 := (Entails.of_eq (rest_send m ρ c 2)) $$ Hpay
  -- the six own cells close: their counters at zero are the device's again
  imod (Rounds.cell_close ER (Rd m ρ) (Set.mem_univ (K (c, sIx 0))) (fun h => h) (R := 0 + 1) (duties_later m ρ (sendCell c 0))) $$ [HatS0] with HzS0
  · isplitr; · iexact HIs0
    iexact HatS0
  imod (Rounds.cell_close ER (Rd m ρ) (Set.mem_univ (K (c, sIx 1))) (fun h => h) (R := 0 + 1) (duties_later m ρ (sendCell c 1))) $$ [HatS1] with HzS1
  · isplitr; · iexact HIs1
    iexact HatS1
  imod (Rounds.cell_close ER (Rd m ρ) (Set.mem_univ (K (c, sIx 2))) (fun h => h) (R := 0 + 1) (duties_later m ρ (sendCell c 2))) $$ [HatS2] with HzS2
  · isplitr; · iexact HIs2
    iexact HatS2
  imod (Rounds.cell_close ER (Rd m ρ) (Set.mem_univ (K (c, rIx 0))) (fun h => h) (R := 0 + 1) (duties_later m ρ (recvCell c 0))) $$ [HatR0] with HzR0
  · isplitr; · iexact HIr0
    iexact HatR0
  imod (Rounds.cell_close ER (Rd m ρ) (Set.mem_univ (K (c, rIx 1))) (fun h => h) (R := 0 + 1) (duties_later m ρ (recvCell c 1))) $$ [HatR1] with HzR1
  · isplitr; · iexact HIr1
    iexact HatR1
  imod (Rounds.cell_close ER (Rd m ρ) (Set.mem_univ (K (c, rIx 2))) (fun h => h) (R := 0 + 1) (duties_later m ρ (recvCell c 2))) $$ [HatR2] with HzR2
  · isplitr; · iexact HIr2
    iexact HatR2
  -- the return: the four row blocks, all at the final contents, are the result buffer whole again; so is the copy
  rw [wp_ret]; imodintro
  iapply Hk
  unfold bodyPost Φ₁ Dat.owesAt Pipeline.owesWithin sendPay recvPay
  rw [show (dats m ρ 0 c).owed t₀.succ = 0 from rfl, bwd0, bwd1, bwd2]
  simp only [bigSep_fin3]
  ihave Hown := (Entails.of_eq (pointsTo_congr (local_eq m ρ c g1))) $$ Hown
  ihave Hout := (Entails.of_eq (out_split c (outAt m ρ c)).symm) $$ [Hown Hg0 Hg1 Hg2]
  · isplitl [Hown]; · iexact Hown
    isplitl [Hg2]; · iexact Hg2
    isplitl [Hg1]; · iexact Hg1
    iexact Hg0
  ihave Hb := (Entails.of_eq (xb_split c (xbv m ρ c)).symm) $$ [Hbown Hs0 Hs1 Hs2]
  · isplitl [Hbown]; · iexact Hbown
    isplitl [Hs0]; · iexact Hs0
    isplitl [Hs1]; · iexact Hs1
    iexact Hs2
  isplitl [Hb HzS0 HzS1 HzS2 HzR0 HzR1 HzR2]
  · isplitl [Hb]; · iexists _; iexact Hb
    isplitl [HzS0 HzS1 HzS2]
    · isplitl [HzS0]; · iexact HzS0
      isplitl [HzS1]; · iexact HzS1
      iexact HzS2
    · isplitl [HzR0]; · iexact HzR0
      isplitl [HzR1]; · iexact HzR1
      iexact HzR2
  isplitl [HO]
  · iexists (insert (SemLoc.dma (sendSem 2), ()) (insert (SemLoc.dma (sendSem 1), ()) (insert (SemLoc.dma (sendSem 0), ())
      (insert (SemLoc.dma (recvSem 2), ()) (insert (SemLoc.dma (recvSem 1), ()) (insert (SemLoc.dma (recvSem 0), ())
        (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on device c. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  iintro H
  iapply (sound_body m ρ c fun _ => bodyPost m ρ c)
  isplitl [H]; · iexact H
  iintro H; iexact H

/-- info: 'Cert.KernelIdeal.A2A.body_obligation' depends on axioms: [propext, Classical.choice, Quot.sound] -/
#guard_msgs in #print axioms body_obligation

end Cert.KernelIdeal.A2A

end
-- ==== Proof.Frame.lean ====
import proofs.«900653_g7700000000000654_dist_a2a_v7x_xyz2x4x4_y_m1024_n512_bf16_1_alg».proof.Proof.Launch
import proofs.«900653_g7700000000000654_dist_a2a_v7x_xyz2x4x4_y_m1024_n512_bf16_1_alg».proof.Proof.Body

/-!
# The run of the whole mesh, and what it leaves of the argument

Every device's body meets the pipeline's obligation, so the launch gives the run of all thirty-two devices: every
weakly fair execution terminates, nothing faults, and each windowed array ends at what the proof data names. The
argument's window is an input's: no write-back touches its array, which therefore ends as it began.
-/

noncomputable section

namespace Cert.KernelIdeal.A2A

open Cert.KernelIdeal Cert.KernelIdeal.Gen

open Idealize.ShloMosaic
open Idealize.ShloMosaic.TcCoe
open Idealize.SL Idealize.SL.Sem
open Idealize.ShloMosaic.Pipeline (Dat Cfg Window BodyObligation)

variable {F : FTy → Type} [FloatOps F]

variable (m : (ℓ : Loc nD τ sig) → Buf (Elt F) ℓ) (ρ : Dev nD → PrngReg)

/-- The run of the mesh: the launch, given each device's body. -/
theorem ran : θ_run defs (onTc (τ := τ) (main (F := F))) (st0 m ρ) (QC m ρ) :=
  run_main m ρ (body_obligation m ρ)

/-- The run keeps every device's argument array: it is window 0's array, an input's, and the final state holds it at
    the contents the proof data names for an input, those it had at launch. -/
theorem frame_run :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c (0 : Fin 2)).trans (finalA_x m ρ c)) (ran m ρ)

end Cert.KernelIdeal.A2A

end
-- ==== Proof.lean ====
/-
  The exchange along the mesh axis y, on thirty-two devices arranged 2 x 4 x 4.

  Each device holds 1024 rows of a 4096 x 2048 array x of f32: row block y, where y is the device's position on the
  axis of four. It narrows its block to bf16 and cuts the copy into four column blocks of 512 columns. Column block y'
  goes to the device at position y' of its ring (the four devices that share its other two coordinates), into row
  block y of that device's 4096 x 512 result; its own column block y it stores into row block y of its own result.
  Before any transfer each device signals the three others of its ring on the barrier semaphore and waits for their
  three signals, so that no block lands in a buffer whose owner has not yet entered; it then waits for its three
  arrivals and its three departures.

  So the device at position y ends with, in row block k of its result, column block y of the narrowed block of the
  ring's device at position k: rows 1024 k to 1024 k + 1023 and columns 512 y to 512 y + 511 of the whole array,
  narrowed. Taken over k that is column block y of the whole array narrowed to bf16, and the whole array narrowed to
  bf16 is what the reference computes on its one device. Over the exact (extended) reals a change of float format is
  the identity; no other law is used, and no entry need be finite.

  The frames: the argument's window is an input's, so no write-back touches its array, at the word-level instance
  and at the exact one alike; the reference's one operation writes only its result. The idealization rewrote no
  operation, so there is nothing to preserve.
-/
import proofs.«900653_g7700000000000654_dist_a2a_v7x_xyz2x4x4_y_m1024_n512_bf16_1_alg».proof.Defs
import proofs.«900653_g7700000000000654_dist_a2a_v7x_xyz2x4x4_y_m1024_n512_bf16_1_alg».proof.Proof.Gen.Kernel
import proofs.«900653_g7700000000000654_dist_a2a_v7x_xyz2x4x4_y_m1024_n512_bf16_1_alg».proof.Proof.Gen.KernelIdeal
import proofs.«900653_g7700000000000654_dist_a2a_v7x_xyz2x4x4_y_m1024_n512_bf16_1_alg».proof.Proof.Gen.ReferenceIdeal
import proofs.«900653_g7700000000000654_dist_a2a_v7x_xyz2x4x4_y_m1024_n512_bf16_1_alg».proof.Proof.Gen.Pre_finite_inputs_Kernel
import proofs.«900653_g7700000000000654_dist_a2a_v7x_xyz2x4x4_y_m1024_n512_bf16_1_alg».proof.Proof.Gen.Pre_finite_inputs_ReferenceIdeal
import proofs.«900653_g7700000000000654_dist_a2a_v7x_xyz2x4x4_y_m1024_n512_bf16_1_alg».proof.Proof.Value
import proofs.«900653_g7700000000000654_dist_a2a_v7x_xyz2x4x4_y_m1024_n512_bf16_1_alg».proof.Proof.Frame
import proofs.«900653_g7700000000000654_dist_a2a_v7x_xyz2x4x4_y_m1024_n512_bf16_1_alg».proof.Proof.W.Frame
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    fun m g _ => Cert.Kernel.A2A.frame_run m g,
    fun m g _ => Cert.KernelIdeal.A2A.frame_run m g,
    Cert.KernelIdeal.A2AValue.ref_frame,
    trivial,
    Cert.KernelIdeal.A2AValue.algebraic_of_ran (fun m ρ => Cert.KernelIdeal.A2A.ran m ρ)⟩

end Cert.Proof

end
